-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x117 : Shape := ⟨2, ![100000, 117]⟩
abbrev S1600000 : Shape := ⟨1, ![1600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S100000x117 : S_.BroadcastsInDim S100000x117 (![] : Fin 0 → Fin S100000x117.rank)
  reducesTo_S100000x117_S_d0_1 : S100000x117.ReducesTo [0, 1] S_
  h_S_ : 0 < S_.numel
  bcast_S_S117x128 : S_.BroadcastsInDim S117x128 (![] : Fin 0 → Fin S117x128.rank)
  reducesTo_S117x128_S_d0_1 : S117x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S100000x117 .f32) (main_arg1 : IVec S1600000 32) (main_arg2 : IVec S1600000 32) (main_arg3 : FVec F S117x128 .f32) (main_arg4 : FVec F S128 .f32) (main_arg5 : FVec F S3x128x128 .f32) (main_arg6 : FVec F S3x128x128 .f32) (main_arg7 : FVec F S3x128 .f32) : IVec S_ 1 :=
  let main_v0 : FVec F S100000x117 .f32 := Host.absf main_arg0
  let main_cst : FVec F S_ .f32 := constant S_ .f32 0x7F800000#32
  let main_v1 : FVec F S100000x117 .f32 := broadcastInDim S100000x117 ![] bcast_S_S100000x117 main_cst
  let main_v2 : IVec S100000x117 1 := cmpf .olt main_v0 main_v1
  let main_c : IVec S_ 1 := constantI S_ 1 1#1
  let main_v3 : IVec S_ 1 := (fun x v => Host.reduce IntOp.andi x v reducesTo_S100000x117_S_d0_1 h_S_) main_v2 main_c
  let main_v4 : FVec F S117x128 .f32 := Host.absf main_arg3
  let main_cst_0 : FVec F S_ .f32 := constant S_ .f32 0x7F800000#32
  let main_v5 : FVec F S117x128 .f32 := broadcastInDim S117x128 ![] bcast_S_S117x128 main_cst_0
  let main_v6 : IVec S117x128 1 := cmpf .olt main_v4 main_v5
  let main_c_1 : IVec S_ 1 := constantI S_ 1 1#1
  let main_v7 : IVec S_ 1 := (fun x v => Host.reduce IntOp.andi x v reducesTo_S117x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_v13 main_v16
-- ==== Kernel.lean ====
abbrev S100000x117 : Shape := ⟨2, ![100000, 117]⟩
abbrev S1600000 : Shape := ⟨1, ![1600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S100000x128 : Shape := ⟨2, ![100000, 128]⟩
abbrev S5000x117 : Shape := ⟨2, ![5000, 117]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩

abbrev nBuf : Space → Nat
  | .hbm => 92
  | .vmem => 33
  | .smem => 0
  | _ => 0

abbrev bufTy : (tb : Table) → Fin (tcTables nBuf tb) → BufTy
  | .hbm, ⟨0, _⟩ => ⟨S100000x117, .f32⟩
  | .hbm, ⟨1, _⟩ => ⟨S1600000, .i32⟩
  | .hbm, ⟨2, _⟩ => ⟨S1600000, .i32⟩
  | .hbm, ⟨3, _⟩ => ⟨S117x128, .f32⟩
  | .hbm, ⟨4, _⟩ => ⟨S128, .f32⟩
  | .hbm, ⟨5, _⟩ => ⟨S3x128x128, .f32⟩
  | .hbm, ⟨6, _⟩ => ⟨S3x128x128, .f32⟩
  | .hbm, ⟨7, _⟩ => ⟨S3x128, .f32⟩
  | .hbm, ⟨8, _⟩ => ⟨S1x128, .f32⟩
  | .hbm, ⟨9, _⟩ => ⟨S100000x128, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128x128, .f32⟩
  | .hbm, ⟨39, _⟩ => ⟨S128x128, .f32⟩
  | .hbm, ⟨40, _⟩ => ⟨S1x128x128, .f32⟩
  | .hbm, ⟨41, _⟩ => ⟨S128x128, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128x128, .f32⟩
  | .hbm, ⟨62, _⟩ => ⟨S128x128, .f32⟩
  | .hbm, ⟨63, _⟩ => ⟨S1x128x128, .f32⟩
  | .hbm, ⟨64, _⟩ => ⟨S128x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S1x128x128, .f32⟩
  | .hbm, ⟨85, _⟩ => ⟨S128x128, .f32⟩
  | .hbm, ⟨86, _⟩ => ⟨S1x128x128, .f32⟩
  | .hbm, ⟨87, _⟩ => ⟨S128x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S100000x128, .f32⟩
  | .local _ .vmem, ⟨0, _⟩ => ⟨S5000x117, .f32⟩
  | .local _ .vmem, ⟨1, _⟩ => ⟨S5000x117, .f32⟩
  | .local _ .vmem, ⟨2, _⟩ => ⟨S117x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S100000x117, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_8 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x117 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S117x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  inb_S5000x117_S5000x117_0_0 : ∀ a, (![0, 0] : Fin 2 → Nat) a + S5000x117.size a ≤ S5000x117.size a
  h_S5000x117 : 0 < S5000x117.numel
  inb_S117x128_S117x128_0_0 : ∀ a, (![0, 0] : Fin 2 → Nat) a + S117x128.size a ≤ S117x128.size a
  h_S117x128 : 0 < S117x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S5000x117_S117x128_S5000x128_1_0_0_1_n_n_wf : DotDims.WF S5000x117 S117x128 S5000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x117.size a ≤ S100000x117.size a
  hwx0_0 : ∀ i : grid0.Coords, EltTy.bits .f32 = 32 ∨ (Rect.block (s := S100000x117) S5000x117.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S117x128.size a ≤ S117x128.size a
  hwx0_1 : ∀ i : grid0.Coords, EltTy.bits .f32 = 32 ∨ (Rect.block (s := S117x128) S117x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def dot_S5000x117_S117x128_S5000x128_1_0_0_1_n_n : DotDims S5000x117 S117x128 S5000x128 where
  lhsContracting := [1]
  rhsContracting := [0]
  lhsNonContracting := [0]
  rhsNonContracting := [1]
  lhsBatch := []
  rhsBatch := []
  wf := dot_S5000x117_S117x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x117.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S117x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x117 : Shape := ⟨2, ![100000, 117]⟩
abbrev S1600000 : Shape := ⟨1, ![1600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 133
  | .vmem => 0
  | .smem => 0
  | _ => 0

abbrev hbmTy0_0 (i : Nat) : BufTy := match i % 128 with
  | 0 => ⟨S100000x117, .f32⟩
  | 1 => ⟨S1600000, .i32⟩
  | 2 => ⟨S1600000, .i32⟩
  | 3 => ⟨S117x128, .f32⟩
  | 4 => ⟨S128, .f32⟩
  | 5 => ⟨S3x128x128, .f32⟩
  | 6 => ⟨S3x128x128, .f32⟩
  | 7 => ⟨S3x128, .f32⟩
  | 8 => ⟨S100000x128, .f32⟩
  | 9 => ⟨S1x128, .f32⟩
  | 10 => ⟨S100000x128, .f32⟩
  | 11 => ⟨S100000x128, .f32⟩
  | 12 => ⟨S100000x128, .f32⟩
  | 13 => ⟨S1x128x128, .f32⟩
  | 14 => ⟨S128x128, .f32⟩
  | 15 => ⟨S1x128x128, .f32⟩
  | 16 => ⟨S128x128, .f32⟩
  | 17 => ⟨S1x128, .f32⟩
  | 18 => ⟨S128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x128x128, .f32⟩
  | 54 => ⟨S128x128, .f32⟩
  | 55 => ⟨S1x128x128, .f32⟩
  | 56 => ⟨S128x128, .f32⟩
  | 57 => ⟨S1x128, .f32⟩
  | 58 => ⟨S128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S1x128x128, .f32⟩
  | 94 => ⟨S128x128, .f32⟩
  | 95 => ⟨S1x128x128, .f32⟩
  | 96 => ⟨S128x128, .f32⟩
  | 97 => ⟨S1x128, .f32⟩
  | 98 => ⟨S128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S_, .f32⟩
  | 113 => ⟨S1600000, .f32⟩
  | 114 => ⟨S_, .f32⟩
  | 115 => ⟨S100000, .f32⟩
  | 116 => ⟨S1600000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S100000x128, .f32⟩
  | 125 => ⟨S100000x128, .f32⟩
  | 126 => ⟨S100000x128, .f32⟩
  | 127 => ⟨S1x128, .f32⟩
  | _ => ⟨S100000x117, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | _ => ⟨S100000x117, .f32⟩

abbrev hbmTy (i : Nat) : BufTy := match i / 128 with
  | 0 => hbmTy0_0 i
  | 1 => hbmTy0_1 i
  | _ => ⟨S100000x117, .f32⟩

abbrev bufTy : (tb : Table) → Fin (tcTables nBuf tb) → BufTy
  | .hbm, ⟨i, _⟩ => hbmTy i
  | _, _ => ⟨S100000x117, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_cst : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_4 : Ref sig .tc := ⟨.hbm, 59, rfl⟩
abbrev main_v43 : Ref sig .tc := ⟨.hbm, 60, rfl⟩
abbrev main_v44 : Ref sig .tc := ⟨.hbm, 61, rfl⟩
abbrev main_c_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call1_cst : Ref sig .tc := ⟨.hbm, 90, rfl⟩
abbrev main_call1_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_10 : Ref sig .tc := ⟨.hbm, 99, rfl⟩
abbrev main_v75 : Ref sig .tc := ⟨.hbm, 100, rfl⟩
abbrev main_v76 : Ref sig .tc := ⟨.hbm, 101, rfl⟩
abbrev main_c_11 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_13 : Ref sig .tc := ⟨.hbm, 112, rfl⟩
abbrev main_v85 : Ref sig .tc := ⟨.hbm, 113, rfl⟩
abbrev main_cst_14 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_15 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_call2_cst : Ref sig .tc := ⟨.hbm, 130, rfl⟩
abbrev main_call2_v0 : Ref sig .tc := ⟨.hbm, 131, rfl⟩
abbrev main_v100 : Ref sig .tc := ⟨.hbm, 132, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S100000x117_S117x128_S100000x128_1_0_0_1_n_n_wf : DotDims.WF S100000x117 S117x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def dot_S100000x117_S117x128_S100000x128_1_0_0_1_n_n : DotDims S100000x117 S117x128 S100000x128 where
  lhsContracting := [1]
  rhsContracting := [0]
  lhsNonContracting := [0]
  rhsNonContracting := [1]
  lhsBatch := []
  rhsBatch := []
  wf := dot_S100000x117_S117x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KBody.lean ====
/-
  What one grid point's body stores, entry by entry.

  The encoder's body stores tanh (X · W + b) for its 5000 × 117 block X of the input rows, the whole 117 × 128 weight W
  and the 1 × 128 bias row b: entry (p, j) of the stored block is
      tanh ( ∑ q < 117, X (p, q) · W (q, j) + b (0, j) ).
  A layer's body stores max (X · Ws + Nm · Wn + b, 0) for its 5000 × 128 blocks X (the nodes' own features) and Nm (their
  neighbour means), the two whole 128 × 128 weights and the 1 × 128 bias row: entry (p, j) of the stored block is
      max ( ∑ q < 128, X (p, q) · Ws (q, j) + ∑ q < 128, Nm (p, q) · Wn (q, j) + b (0, j) , 0 ).
  In both the matrix products accumulate into an all-zero array, which adds nothing; the bias row is repeated down the
  5000 rows; and the casts of a block to its own shape change nothing.
-/
import proofs.«173356_j66434554135156_1_alg».proof.Proof.Gen.KernelIdeal.Skeleton
import proofs.«173356_j66434554135156_1_alg».proof.Proof.LibDotPlain
import Idealize.ShloMosaic.Lib.Pipeline.Value
import Idealize.ShloMosaic.Lib.ValueIdx

noncomputable section

open scoped BigOperators

namespace Cert.KernelIdeal.Body

open Idealize.ShloMosaic Idealize.ShloMosaic.ValueIdx Cert.KernelIdeal Cert.KernelIdeal.Gen

/-- The 1 × 128 bias row repeated down 5000 rows, read at (p, j), is the row's entry (0, j). -/
theorem bias_rows (b : FVec Ideal S1x128 .f32) (p : Fin 5000) (j : Fin 128) :
    broadcastTo S5000x128 b broadcasts_S1x128_S5000x128 (ix2 p j) = b (ix2 0 j) :=
  broadcastTo_apply b broadcasts_S1x128_S5000x128 (ix2 p j) (ix2 0 j) (fun a => by
    match a with
    | ⟨0, _⟩ => rfl
    | ⟨1, _⟩ => rfl)

/-- The encoder's stored block at (p, j). -/
theorem encode_payload (x : Vec Ideal S5000x117 .f32) (w : Vec Ideal S117x128 .f32) (b : Vec Ideal S1x128 .f32)
    (p : Fin 5000) (j : Fin 128) :
    k0_pay1 (F := Ideal) x w b (ix2 p j)
      = Ideal.tanh ((∑ q : Fin 117, (x (ix2 p q) : EReal) * (w (ix2 q j) : EReal)) + (b (ix2 0 j) : EReal)) := by
  unfold k0_pay1
  show Ideal.tanh (FloatOps.matmul (F := Ideal) dot_S5000x117_S117x128_S5000x128_1_0_0_1_n_n none x w
        (constant (F := Ideal) S5000x128 .f32 0x00000000#32) (ix2 p j)
      + broadcastTo S5000x128 (shapeCast S1x128 b shapeCasts_S1x128_S1x128) broadcasts_S1x128_S5000x128 (ix2 p j)) = _
  rw [shapeCast_self, bias_rows]
  exact congrArg (fun s => Ideal.tanh (s + b (ix2 0 j))) (Cert.LibDotPlain.matmul_zero_plain 5000 117 128 none x w p j)

/-- A layer's stored block at (p, j). -/
theorem layer_payload (x nm : Vec Ideal S5000x128 .f32) (ws wn : Vec Ideal S128x128 .f32) (b : Vec Ideal S1x128 .f32)
    (p : Fin 5000) (j : Fin 128) :
    k1_pay1 (F := Ideal) x nm ws wn b (ix2 p j)
      = max (((∑ q : Fin 128, (x (ix2 p q) : EReal) * (ws (ix2 q j) : EReal))
              + (∑ q : Fin 128, (nm (ix2 p q) : EReal) * (wn (ix2 q j) : EReal))) + (b (ix2 0 j) : EReal))
          (Ideal.ofBits .f32 0x00000000#32) := by
  unfold k1_pay1
  show max ((FloatOps.matmul (F := Ideal) dot_S5000x128_S128x128_S5000x128_1_0_0_1_n_n none
          (shapeCast S5000x128 x shapeCasts_S5000x128_S5000x128) (shapeCast S128x128 ws shapeCasts_S128x128_S128x128)
          (constant (F := Ideal) S5000x128 .f32 0x00000000#32) (ix2 p j)
        + FloatOps.matmul (F := Ideal) dot_S5000x128_S128x128_S5000x128_1_0_0_1_n_n none
          (shapeCast S5000x128 nm shapeCasts_S5000x128_S5000x128) (shapeCast S128x128 wn shapeCasts_S128x128_S128x128)
          (constant (F := Ideal) S5000x128 .f32 0x00000000#32) (ix2 p j))
      + broadcastTo S5000x128 (shapeCast S1x128 b shapeCasts_S1x128_S1x128) broadcasts_S1x128_S5000x128 (ix2 p j))
      (Ideal.ofBits .f32 0x00000000#32) = _
  rw [shapeCast_self, shapeCast_self, shapeCast_self, shapeCast_self, shapeCast_self, bias_rows]
  have h1 := Cert.LibDotPlain.matmul_zero_plain 5000 128 128 (φ₁ := .f32) (φ₂ := .f32) none x ws p j
  have h2 := Cert.LibDotPlain.matmul_zero_plain 5000 128 128 (φ₁ := .f32) (φ₂ := .f32) none nm wn p j
  exact congrArg₂ (fun s t => max ((s + t) + b (ix2 0 j)) (Ideal.ofBits .f32 0x00000000#32)) h1 h2

/-- The three layers' bodies are one text. -/
theorem k2_pay1_eq : @k2_pay1 Ideal _ = @k1_pay1 Ideal _ := rfl
theorem k3_pay1_eq : @k3_pay1 Ideal _ = @k1_pay1 Ideal _ := rfl

/-- The same entry, under each layer's own name for its body. -/
theorem layer_payload1 (x nm : Vec Ideal S5000x128 .f32) (ws wn : Vec Ideal S128x128 .f32) (b : Vec Ideal S1x128 .f32)
    (p : Fin 5000) (j : Fin 128) :
    k1_pay1 (F := Ideal) x nm ws wn b (ix2 p j)
      = max (((∑ q : Fin 128, (x (ix2 p q) : EReal) * (ws (ix2 q j) : EReal))
              + (∑ q : Fin 128, (nm (ix2 p q) : EReal) * (wn (ix2 q j) : EReal))) + (b (ix2 0 j) : EReal))
          (Ideal.ofBits .f32 0x00000000#32) := layer_payload x nm ws wn b p j
theorem layer_payload2 (x nm : Vec Ideal S5000x128 .f32) (ws wn : Vec Ideal S128x128 .f32) (b : Vec Ideal S1x128 .f32)
    (p : Fin 5000) (j : Fin 128) :
    k2_pay1 (F := Ideal) x nm ws wn b (ix2 p j)
      = max (((∑ q : Fin 128, (x (ix2 p q) : EReal) * (ws (ix2 q j) : EReal))
              + (∑ q : Fin 128, (nm (ix2 p q) : EReal) * (wn (ix2 q j) : EReal))) + (b (ix2 0 j) : EReal))
          (Ideal.ofBits .f32 0x00000000#32) := layer_payload x nm ws wn b p j
theorem layer_payload3 (x nm : Vec Ideal S5000x128 .f32) (ws wn : Vec Ideal S128x128 .f32) (b : Vec Ideal S1x128 .f32)
    (p : Fin 5000) (j : Fin 128) :
    k3_pay1 (F := Ideal) x nm ws wn b (ix2 p j)
      = max (((∑ q : Fin 128, (x (ix2 p q) : EReal) * (ws (ix2 q j) : EReal))
              + (∑ q : Fin 128, (nm (ix2 p q) : EReal) * (wn (ix2 q j) : EReal))) + (b (ix2 0 j) : EReal))
          (Ideal.ofBits .f32 0x00000000#32) := layer_payload x nm ws wn b p j

end Cert.KernelIdeal.Body
-- ==== Proof.Spec.lean ====
/-
  What the two programs compute, entry by entry, and the one law of the extended reals that joins them.

  Both programs are a three-layer mean-aggregating graph network over 100000 nodes with 128 features each.

  * The encoder. Entry (p, j) of the first feature array is
        tanh ( ∑ q < 117, x (p, q) · w (q, j) + b (j) ),
    a row of the 100000 × 117 input against a column of the 117 × 128 weight, plus the bias, through tanh.
  * One layer. Given the node features x and the neighbour means nm (both 100000 × 128), entry (p, j) of the next
    feature array is
        max ( ∑ q < 128, x (p, q) · ws (q, j) + ∑ q < 128, nm (p, q) · wn (q, j) + b (j) , 0 ).
  * The neighbour mean. Each node's neighbour sum is divided by max (degree, 1). One program multiplies the sum by the
    reciprocal 1 / max (degree, 1), the other divides the sum by max (degree, 1). On the extended reals the quotient by a
    NONZERO d is by definition the product with d⁻¹, and 1 / d is 1 · d⁻¹ = d⁻¹, so the two agree at every extended real
    numerator, the infinities included; and max (degree, 1) ≥ 1 is never zero. No finiteness of any input is used.

  A row's entries are read at coordinates of the literal types Fin 100000, Fin 117 and Fin 128.
-/
import Idealize.ShloMosaic.PureOps.Ideal.Laws
import Idealize.ShloMosaic.Lib.ValueIdx
import Idealize.ShloMosaic.Lib.IdealHost

noncomputable section

open scoped BigOperators

namespace Cert.Spec

open Idealize.ShloMosaic Idealize.ShloMosaic.ValueIdx

/-! ## The encoder -/

/-- Entry (p, j) of the encoded features: tanh of row p of x against column j of w, plus the bias at j. -/
def encodeAt (x : FVec Ideal ⟨2, ![100000, 117]⟩ .f32) (w : FVec Ideal ⟨2, ![117, 128]⟩ .f32)
    (b : FVec Ideal ⟨1, ![128]⟩ .f32) (p : Fin 100000) (j : Fin 128) : EReal :=
  Ideal.tanh ((∑ q : Fin 117, x (ix2 p q) * w (ix2 q j)) + b (ix1 j))

/-- The encoded features as one 100000 × 128 array. -/
def encode (x : FVec Ideal ⟨2, ![100000, 117]⟩ .f32) (w : FVec Ideal ⟨2, ![117, 128]⟩ .f32)
    (b : FVec Ideal ⟨1, ![128]⟩ .f32) : FVec Ideal ⟨2, ![100000, 128]⟩ .f32 :=
  fun i => encodeAt x w b (i 0) (i 1)

theorem encode_ix2 (x : FVec Ideal ⟨2, ![100000, 117]⟩ .f32) (w : FVec Ideal ⟨2, ![117, 128]⟩ .f32)
    (b : FVec Ideal ⟨1, ![128]⟩ .f32) (p : Fin 100000) (j : Fin 128) :
    encode x w b (ix2 p j) = encodeAt x w b p j := rfl

/-! ## One layer -/

/-- Entry (p, j) of a layer's output: the node's own features against ws, its neighbour mean against wn, the bias,
    and the positive part. -/
def layerAt (x nm : FVec Ideal ⟨2, ![100000, 128]⟩ .f32) (ws wn : FVec Ideal ⟨2, ![128, 128]⟩ .f32)
    (b : FVec Ideal ⟨1, ![128]⟩ .f32) (p : Fin 100000) (j : Fin 128) : EReal :=
  max (((∑ q : Fin 128, x (ix2 p q) * ws (ix2 q j)) + (∑ q : Fin 128, nm (ix2 p q) * wn (ix2 q j))) + b (ix1 j))
    (Ideal.ofBits .f32 0x00000000#32)

/-- A layer's output as one 100000 × 128 array. -/
def layer (x nm : FVec Ideal ⟨2, ![100000, 128]⟩ .f32) (ws wn : FVec Ideal ⟨2, ![128, 128]⟩ .f32)
    (b : FVec Ideal ⟨1, ![128]⟩ .f32) : FVec Ideal ⟨2, ![100000, 128]⟩ .f32 :=
  fun i => layerAt x nm ws wn b (i 0) (i 1)

theorem layer_ix2 (x nm : FVec Ideal ⟨2, ![100000, 128]⟩ .f32) (ws wn : FVec Ideal ⟨2, ![128, 128]⟩ .f32)
    (b : FVec Ideal ⟨1, ![128]⟩ .f32) (p : Fin 100000) (j : Fin 128) :
    layer x nm ws wn b (ix2 p j) = layerAt x nm ws wn b p j := rfl

/-! ## The neighbour mean: a product with the reciprocal is the quotient -/

/-- For a nonzero divisor d, x · (1 / d) = x / d at every extended real x: both are x · d⁻¹. -/
theorem mul_one_div_eq_div (x d : EReal) (hd : d ≠ 0) : x * Ideal.div 1 d = Ideal.div x d := by
  rw [Ideal.div, if_neg hd, Ideal.div, if_neg hd, one_mul]

/-- The larger of anything and the float one is not zero. -/
theorem max_one_ne_zero (y : EReal) : max y (Ideal.ofBits .f32 0x3F800000#32) ≠ 0 := by
  rw [Ideal.ofBits_one_f32]
  exact ne_of_gt (lt_of_lt_of_le zero_lt_one (le_max_right y 1))

end Cert.Spec
-- ==== Proof.Region0.lean ====
/-
  The encoder region's array.

  The region runs the encoder's body at 20 grid points. Point t reads rows 5000·t … 5000·t + 4999 of the 100000 × 117
  input, the whole weight and the whole bias row, and writes rows 5000·t … 5000·t + 4999 of the 100000 × 128 result. So
  what point t writes back is block t of ONE function of the arrays the region finds: entry (5000·t + p, j) is
      tanh ( ∑ q < 117, x (5000·t + p, q) · w (q, j) + b (0, j) ),
  the encoder's entry. The 20 blocks tile the result's rows (row r lies in block r / 5000), so after the region the
  whole result array is that function.
-/
import proofs.«173356_j66434554135156_1_alg».proof.Proof.Gen.KernelIdeal.Frame
import proofs.«173356_j66434554135156_1_alg».proof.Proof.KBody
import proofs.«173356_j66434554135156_1_alg».proof.Proof.Spec
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The bias row the region finds, as a vector of 128 entries. -/
def biasOf (c : Dev nD) : FVec Ideal ⟨1, ![128]⟩ .f32 := fun j => V c main_v0 (ix2 0 (j 0))

/-- The block indices of the four windows at point t: the input rows and the result rows move with t, the weight and
    the bias stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored block, over blocks that are rows r0 … r0 + 4999 of x, the whole w and a row whose entries are
    b's, is the encoder's function at rows r0 … r0 + 4999. -/
theorem stored_eq_encode (X : Vec Ideal S5000x117 .f32) (Wt : Vec Ideal S117x128 .f32) (B : Vec Ideal S1x128 .f32)
    (x : FVec Ideal ⟨2, ![100000, 117]⟩ .f32) (w : FVec Ideal ⟨2, ![117, 128]⟩ .f32) (b : FVec Ideal ⟨1, ![128]⟩ .f32)
    (r0 : Nat) (hX : ∀ (p : Fin 5000) (q : Fin 117) (i : Fin 100000), i.val = r0 + p.val → X (ix2 p q) = x (ix2 i q))
    (hW : ∀ (q : Fin 117) (j : Fin 128), Wt (ix2 q j) = w (ix2 q j)) (hB : ∀ j : Fin 128, B (ix2 0 j) = b (ix1 j))
    (p : Fin 5000) (j : Fin 128) (i : Fin 100000) (hi : i.val = r0 + p.val) :
    k0_pay1 (F := Ideal) X Wt B (ix2 p j) = Cert.Spec.encodeAt x w b i j := by
  rw [Cert.KernelIdeal.Body.encode_payload, hB]
  unfold Cert.Spec.encodeAt
  refine congrArg (fun s => Ideal.tanh (s + b (ix1 j))) (Finset.sum_congr rfl fun q _ => ?_)
  rw [hX p q i hi, hW]

/-- WHAT POINT t WRITES BACK is block t of the encoder's function of the arrays the region finds. -/
theorem flushed_eq (c : Dev nD) (t : Fin cfg0.N) :
    (dat0 V c).flushed 3 t
      = ((cfg0.win 3).blk t).view.read (Elt Ideal) (Cert.Spec.encode (V c main_arg0) (V c main_arg3) (biasOf V c)) := by
  show (cfg0.win 3).cut (grid0.coords t) ((dat0 V c).after 3 t) = _
  rw [after0_3]
  unfold out0_3
  rw [View.canon_unit_zero zero_offsets]
  simp only [View.ld_unit_zero (S := S5000x117) zero_offsets, View.ld_unit_zero (S := S117x128) zero_offsets,
    View.ld_unit_zero (S := S1x128) zero_offsets]
  obtain ⟨e00, e01, e10, e11, e20, e21, e30, e31⟩ := block_indices t
  have ht : t.val < 20 := t.isLt
  -- the three input blocks, read where the region's arrays hold them
  have hX : ∀ (p : Fin 5000) (q : Fin 117) (i : Fin 100000), i.val = t.val * 5000 + p.val →
      iblk0 V c 0 t (ix2 p q) = V c main_arg0 (ix2 i q) := by
    intro p q i hi
    show V c main_arg0 (((cfg0.win 0).blk t).view.emb (ix2 p q)) = V c main_arg0 (ix2 i q)
    refine congrArg (V c main_arg0) (funext fun a => Fin.ext ?_)
    match a with
    | ⟨0, _⟩ => show win0_0.index t (0 : Fin 2) * 5000 + 1 * p.val = i.val; omega
    | ⟨1, _⟩ => show win0_0.index t (1 : Fin 2) * 117 + 1 * q.val = q.val; omega
  have hW : ∀ (q : Fin 117) (j : Fin 128), iblk0 V c 1 t (ix2 q j) = V c main_arg3 (ix2 q j) := by
    intro q j
    show V c main_arg3 (((cfg0.win 1).blk t).view.emb (ix2 q j)) = V c main_arg3 (ix2 q j)
    refine congrArg (V c main_arg3) (funext fun a => Fin.ext ?_)
    match a with
    | ⟨0, _⟩ => show win0_1.index t (0 : Fin 2) * 117 + 1 * q.val = q.val; omega
    | ⟨1, _⟩ => show win0_1.index t (1 : Fin 2) * 128 + 1 * j.val = j.val; omega
  have hB : ∀ j : Fin 128, iblk0 V c 2 t (ix2 0 j) = biasOf V c (ix1 j) := by
    intro j
    show V c main_v0 (((cfg0.win 2).blk t).view.emb (ix2 0 j)) = V c main_v0 (ix2 0 j)
    refine congrArg (V c main_v0) (funext fun a => Fin.ext ?_)
    match a with
    | ⟨0, _⟩ => show win0_2.index t (0 : Fin 2) * 1 + 1 * 0 = 0; omega
    | ⟨1, _⟩ => show win0_2.index t (1 : Fin 2) * 128 + 1 * j.val = j.val; omega
  funext y
  obtain ⟨p, j, rfl⟩ : ∃ (p : Fin 5000) (j : Fin 128), y = ix2 p j := ⟨y 0, y 1, eq_ix2 y⟩
  show k0_pay1 (F := Ideal) (iblk0 V c 0 t) (iblk0 V c 1 t) (iblk0 V c 2 t) (ix2 p j)
      = Cert.Spec.encode (V c main_arg0) (V c main_arg3) (biasOf V c) (((cfg0.win 3).blk t).view.emb (ix2 p j))
  have hi : ((cfg0.win 3).blk t).view.emb (ix2 p j)
      = ix2 (⟨t.val * 5000 + p.val, by have := p.isLt; omega⟩ : Fin 100000) j := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * j.val = j.val; omega
  rw [hi, Cert.Spec.encode_ix2]
  exact stored_eq_encode (iblk0 V c 0 t) (iblk0 V c 1 t) (iblk0 V c 2 t) (V c main_arg0) (V c main_arg3) (biasOf V c)
    (t.val * 5000) hX hW hB p j _ rfl

/-- An index of the result array is in point t's block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every index of the result array is in some point's block: row r is in block r / 5000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := (⟨(i 0).val / 5000, (by omega : (i 0).val / 5000 < 20)⟩ : Fin 20)
  have htv : t.val = (i 0).val / 5000 := rfl
  obtain ⟨-, -, -, -, -, -, e30, e31⟩ := block_indices t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE RESULT ARRAY after the region is the encoder's function of the arrays the region finds. -/
theorem encoded (c : Dev nD) :
    (dat0 V c).arrAt 3 cfg0.N = Cert.Spec.encode (V c main_arg0) (V c main_arg3) (biasOf V c) :=
  (dat0 V c).arrAt_eq_of_cover 3 _ (fun t _ => flushed_eq V c t) (covered)

end Cert.KernelIdeal.Region0
-- ==== Proof.Region1.lean ====
/-
  The first layer region's array.

  The region runs the layer's body at 20 grid points. Point t reads rows 5000·t … 5000·t + 4999 of the node features x
  and of the neighbour means nm (both 100000 × 128), the two whole 128 × 128 weights and the whole bias row, and writes
  rows 5000·t … 5000·t + 4999 of the 100000 × 128 result. So what point t writes back is block t of ONE function of the
  arrays the region finds: entry (5000·t + p, j) is
      max ( ∑ q < 128, x (5000·t + p, q) · ws (q, j) + ∑ q < 128, nm (5000·t + p, q) · wn (q, j) + b (0, j) , 0 ),
  the layer's entry. The 20 blocks tile the result's rows (row r lies in block r / 5000), so after the region the whole
  result array is that function.
-/
import proofs.«173356_j66434554135156_1_alg».proof.Proof.Gen.KernelIdeal.Frame
import proofs.«173356_j66434554135156_1_alg».proof.Proof.KBody
import proofs.«173356_j66434554135156_1_alg».proof.Proof.Spec
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The bias row the region finds, as a vector of 128 entries. -/
def biasOf (c : Dev nD) : FVec Ideal ⟨1, ![128]⟩ .f32 := fun j => V c main_v29 (ix2 0 (j 0))

/-- The block indices of the six windows at point t: the two row blocks read and the row block written move with t,
    the weights and the bias stay. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's stored block, over blocks that are rows r0 … r0 + 4999 of x and of nm, the whole weights and a row whose
    entries are b's, is the layer's function at rows r0 … r0 + 4999. -/
theorem stored_eq_layer (X Nm : Vec Ideal S5000x128 .f32) (Ws Wn : Vec Ideal S128x128 .f32) (B : Vec Ideal S1x128 .f32)
    (x nm : FVec Ideal ⟨2, ![100000, 128]⟩ .f32) (ws wn : FVec Ideal ⟨2, ![128, 128]⟩ .f32) (b : FVec Ideal ⟨1, ![128]⟩ .f32)
    (r0 : Nat) (hX : ∀ (p : Fin 5000) (q : Fin 128) (i : Fin 100000), i.val = r0 + p.val → X (ix2 p q) = x (ix2 i q))
    (hNm : ∀ (p : Fin 5000) (q : Fin 128) (i : Fin 100000), i.val = r0 + p.val → Nm (ix2 p q) = nm (ix2 i q))
    (hWs : ∀ (q : Fin 128) (j : Fin 128), Ws (ix2 q j) = ws (ix2 q j))
    (hWn : ∀ (q : Fin 128) (j : Fin 128), Wn (ix2 q j) = wn (ix2 q j)) (hB : ∀ j : Fin 128, B (ix2 0 j) = b (ix1 j))
    (p : Fin 5000) (j : Fin 128) (i : Fin 100000) (hi : i.val = r0 + p.val) :
    k1_pay1 (F := Ideal) X Nm Ws Wn B (ix2 p j) = Cert.Spec.layerAt x nm ws wn b i j := by
  rw [Cert.KernelIdeal.Body.layer_payload1, hB]
  unfold Cert.Spec.layerAt
  refine congrArg₂ (fun s u => max ((s + u) + b (ix1 j)) (Ideal.ofBits .f32 0x00000000#32))
    (Finset.sum_congr rfl fun q _ => ?_) (Finset.sum_congr rfl fun q _ => ?_)
  · rw [hX p q i hi, hWs]
  · rw [hNm p q i hi, hWn]

/-- WHAT POINT t WRITES BACK is block t of the layer's function of the arrays the region finds. -/
theorem flushed_eq (c : Dev nD) (t : Fin cfg1.N) :
    (dat1 V c).flushed 5 t
      = ((cfg1.win 5).blk t).view.read (Elt Ideal)
          (Cert.Spec.layer (V c main_v1) (V c main_v22) (V c main_v24) (V c main_v26) (biasOf V c)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51⟩ := block_indices t
  have ht : t.val < 20 := t.isLt
  -- the five input blocks, read where the region's arrays hold them
  have hX : ∀ (p : Fin 5000) (q : Fin 128) (i : Fin 100000), i.val = t.val * 5000 + p.val →
      iblk1 V c 0 t (ix2 p q) = V c main_v1 (ix2 i q) := by
    intro p q i hi
    show V c main_v1 (((cfg1.win 0).blk t).view.emb (ix2 p q)) = V c main_v1 (ix2 i q)
    refine congrArg (V c main_v1) (funext fun a => Fin.ext ?_)
    match a with
    | ⟨0, _⟩ => show win1_0.index t (0 : Fin 2) * 5000 + 1 * p.val = i.val; omega
    | ⟨1, _⟩ => show win1_0.index t (1 : Fin 2) * 128 + 1 * q.val = q.val; omega
  have hNm : ∀ (p : Fin 5000) (q : Fin 128) (i : Fin 100000), i.val = t.val * 5000 + p.val →
      iblk1 V c 1 t (ix2 p q) = V c main_v22 (ix2 i q) := by
    intro p q i hi
    show V c main_v22 (((cfg1.win 1).blk t).view.emb (ix2 p q)) = V c main_v22 (ix2 i q)
    refine congrArg (V c main_v22) (funext fun a => Fin.ext ?_)
    match a with
    | ⟨0, _⟩ => show win1_1.index t (0 : Fin 2) * 5000 + 1 * p.val = i.val; omega
    | ⟨1, _⟩ => show win1_1.index t (1 : Fin 2) * 128 + 1 * q.val = q.val; omega
  have hWs : ∀ (q : Fin 128) (j : Fin 128), iblk1 V c 2 t (ix2 q j) = V c main_v24 (ix2 q j) := by
    intro q j
    show V c main_v24 (((cfg1.win 2).blk t).view.emb (ix2 q j)) = V c main_v24 (ix2 q j)
    refine congrArg (V c main_v24) (funext fun a => Fin.ext ?_)
    match a with
    | ⟨0, _⟩ => show win1_2.index t (0 : Fin 2) * 128 + 1 * q.val = q.val; omega
    | ⟨1, _⟩ => show win1_2.index t (1 : Fin 2) * 128 + 1 * j.val = j.val; omega
  have hWn : ∀ (q : Fin 128) (j : Fin 128), iblk1 V c 3 t (ix2 q j) = V c main_v26 (ix2 q j) := by
    intro q j
    show V c main_v26 (((cfg1.win 3).blk t).view.emb (ix2 q j)) = V c main_v26 (ix2 q j)
    refine congrArg (V c main_v26) (funext fun a => Fin.ext ?_)
    match a with
    | ⟨0, _⟩ => show win1_3.index t (0 : Fin 2) * 128 + 1 * q.val = q.val; omega
    | ⟨1, _⟩ => show win1_3.index t (1 : Fin 2) * 128 + 1 * j.val = j.val; omega
  have hB : ∀ j : Fin 128, iblk1 V c 4 t (ix2 0 j) = biasOf V c (ix1 j) := by
    intro j
    show V c main_v29 (((cfg1.win 4).blk t).view.emb (ix2 0 j)) = V c main_v29 (ix2 0 j)
    refine congrArg (V c main_v29) (funext fun a => Fin.ext ?_)
    match a with
    | ⟨0, _⟩ => show win1_4.index t (0 : Fin 2) * 1 + 1 * 0 = 0; omega
    | ⟨1, _⟩ => show win1_4.index t (1 : Fin 2) * 128 + 1 * j.val = j.val; omega
  funext y
  obtain ⟨p, j, rfl⟩ : ∃ (p : Fin 5000) (j : Fin 128), y = ix2 p j := ⟨y 0, y 1, eq_ix2 y⟩
  show k1_pay1 (F := Ideal) (iblk1 V c 0 t) (iblk1 V c 1 t) (iblk1 V c 2 t) (iblk1 V c 3 t) (iblk1 V c 4 t) (ix2 p j)
      = Cert.Spec.layer (V c main_v1) (V c main_v22) (V c main_v24) (V c main_v26) (biasOf V c)
          (((cfg1.win 5).blk t).view.emb (ix2 p j))
  have hi : ((cfg1.win 5).blk t).view.emb (ix2 p j)
      = ix2 (⟨t.val * 5000 + p.val, by have := p.isLt; omega⟩ : Fin 100000) j := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * j.val = j.val; omega
  rw [hi, Cert.Spec.layer_ix2]
  exact stored_eq_layer (iblk1 V c 0 t) (iblk1 V c 1 t) (iblk1 V c 2 t) (iblk1 V c 3 t) (iblk1 V c 4 t)
    (V c main_v1) (V c main_v22) (V c main_v24) (V c main_v26) (biasOf V c)
    (t.val * 5000) hX hNm hWs hWn hB p j _ rfl

/-- An index of the result array is in point t's block iff each coordinate is in the block's range on its axis. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v30).slice (win1_5.rect t)).set ↔ _
  rw [View.set_slice_whole, Rect.mem_set_unit]
  exact Iff.rfl

/-- Every index of the result array is in some point's block: row r is in block r / 5000. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := (⟨(i 0).val / 5000, (by omega : (i 0).val / 5000 < 20)⟩ : Fin 20)
  have htv : t.val = (i 0).val / 5000 := rfl
  obtain ⟨-, -, -, -, -, -, -, -, -, -, e50, e51⟩ := block_indices t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- THE RESULT ARRAY after the region is the layer's function of the arrays the region finds. -/
theorem layered (c : Dev nD) :
    (dat1 V c).arrAt 5 cfg1.N
      = Cert.Spec.layer (V c main_v1) (V c main_v22) (V c main_v24) (V c main_v26) (biasOf V c) :=
  (dat1 V c).arrAt_eq_of_cover 5 _ (fun t _ => flushed_eq V c t) (covered)

end Cert.KernelIdeal.Region1
-- ==== Proof.Region2.lean ====
/-
  The second layer region's array.

  The region runs the layer's body at 20 grid points. Point t reads rows 5000·t … 5000·t + 4999 of the node features x
  and of the neighbour means nm (both 100000 × 128), the two whole 128 × 128 weights and the whole bias row, and writes
  rows 5000·t … 5000·t + 4999 of the 100000 × 128 result. So what point t writes back is block t of ONE function of the
  arrays the region finds: entry (5000·t + p, j) is
      max ( ∑ q < 128, x (5000·t + p, q) · ws (q, j) + ∑ q < 128, nm (5000·t + p, q) · wn (q, j) + b (0, j) , 0 ),
  the layer's entry. The 20 blocks tile the result's rows (row r lies in block r / 5000), so after the region the whole
  result array is that function.
-/
import proofs.«173356_j66434554135156_1_alg».proof.Proof.Gen.KernelIdeal.Frame
import proofs.«173356_j66434554135156_1_alg».proof.Proof.KBody
import proofs.«173356_j66434554135156_1_alg».proof.Proof.Spec
import Idealize.ShloMosaic.Lib.Pipeline.Value

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The bias row the region finds, as a vector of 128 entries. -/
def biasOf (c : Dev nD) : FVec Ideal ⟨1, ![128]⟩ .f32 := fun j => V c main_v49 (ix2 0 (j 0))

/-- The block indices of the six windows at point t: the two row blocks read and the row block written move with t,
    the weights and the bias stay. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The body's stored block, over blocks that are rows r0 … r0 + 4999 of x and of nm, the whole weights and a row whose
    entries are b's, is the layer's function at rows r0 … r0 + 4999. -/
theorem stored_eq_layer (X Nm : Vec Ideal S5000x128 .f32) (Ws Wn : Vec Ideal S128x128 .f32) (B : Vec Ideal S1x128 .f32)
    (x nm : FVec Ideal ⟨2, ![100000, 128]⟩ .f32) (ws wn : FVec Ideal ⟨2, ![128, 128]⟩ .f32) (b : FVec Ideal ⟨1, ![128]⟩ .f32)
    (r0 : Nat) (hX : ∀ (p : Fin 5000) (q : Fin 128) (i : Fin 100000), i.val = r0 + p.val → X (ix2 p q) = x (ix2 i q))
    (hNm : ∀ (p : Fin 5000) (q : Fin 128) (i : Fin 100000), i.val = r0 + p.val → Nm (ix2 p q) = nm (ix2 i q))
    (hWs : ∀ (q : Fin 128) (j : Fin 128), Ws (ix2 q j) = ws (ix2 q j))
    (hWn : ∀ (q : Fin 128) (j : Fin 128), Wn (ix2 q j) = wn (ix2 q j)) (hB : ∀ j : Fin 128, B (ix2 0 j) = b (ix1 j))
    (p : Fin 5000) (j : Fin 128) (i : Fin 100000) (hi : i.val = r0 + p.val) :
    k2_pay1 (F := Ideal) X Nm Ws Wn B (ix2 p j) = Cert.Spec.layerAt x nm ws wn b i j := by
  rw [Cert.KernelIdeal.Body.layer_payload2, hB]
  unfold Cert.Spec.layerAt
  refine congrArg₂ (fun s u => max ((s + u) + b (ix1 j)) (Ideal.ofBits .f32 0x00000000#32))
    (Finset.sum_congr rfl fun q _ => ?_) (Finset.sum_congr rfl fun q _ => ?_)
  · rw [hX p q i hi, hWs]
  · rw [hNm p q i hi, hWn]

/-- WHAT POINT t WRITES BACK is block t of the layer's function of the arrays the region finds. -/
theorem flushed_eq (c : Dev nD) (t : Fin cfg2.N) :
    (dat2 V c).flushed 5 t
      = ((cfg2.win 5).blk t).view.read (Elt Ideal)
          (Cert.Spec.layer (V c main_v30) (V c main_v42) (V c main_v44) (V c main_v46) (biasOf V c)) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51⟩ := block_indices t
  have ht : t.val < 20 := t.isLt
  -- the five input blocks, read where the region's arrays hold them
  have hX : ∀ (p : Fin 5000) (q : Fin 128) (i : Fin 100000), i.val = t.val * 5000 + p.val →
      iblk2 V c 0 t (ix2 p q) = V c main_v30 (ix2 i q) := by
    intro p q i hi
    show V c main_v30 (((cfg2.win 0).blk t).view.emb (ix2 p q)) = V c main_v30 (ix2 i q)
    refine congrArg (V c main_v30) (funext fun a => Fin.ext ?_)
    match a with
    | ⟨0, _⟩ => show win2_0.index t (0 : Fin 2) * 5000 + 1 * p.val = i.val; omega
    | ⟨1, _⟩ => show win2_0.index t (1 : Fin 2) * 128 + 1 * q.val = q.val; omega
  have hNm : ∀ (p : Fin 5000) (q : Fin 128) (i : Fin 100000), i.val = t.val * 5000 + p.val →
      iblk2 V c 1 t (ix2 p q) = V c main_v42 (ix2 i q) := by
    intro p q i hi
    show V c main_v42 (((cfg2.win 1).blk t).view.emb (ix2 p q)) = V c main_v42 (ix2 i q)
    refine congrArg (V c main_v42) (funext fun a => Fin.ext ?_)
    match a with
    | ⟨0, _⟩ => show win2_1.index t (0 : Fin 2) * 5000 + 1 * p.val = i.val; omega
    | ⟨1, _⟩ => show win2_1.index t (1 : Fin 2) * 128 + 1 * q.val = q.val; omega
  have hWs : ∀ (q : Fin 128) (j : Fin 128), iblk2 V c 2 t (ix2 q j) = V c main_v44 (ix2 q j) := by
    intro q j
    show V c main_v44 (((cfg2.win 2).blk t).view.emb (ix2 q j)) = V c main_v44 (ix2 q j)
    refine congrArg (V c main_v44) (funext fun a => Fin.ext ?_)
    match a with
    | ⟨0, _⟩ => show win2_2.index t (0 : Fin 2) * 128 + 1 * q.val = q.val; omega
    | ⟨1, _⟩ => show win2_2.index t (1 : Fin 2) * 128 + 1 * j.val = j.val; omega
  have hWn : ∀ (q : Fin 128) (j : Fin 128), iblk2 V c 3 t (ix2 q j) = V c main_v46 (ix2 q j) := by
    intro q j
    show V c main_v46 (((cfg2.win 3).blk t).view.emb (ix2 q j)) = V c main_v46 (ix2 q j)
    refine congrArg (V c main_v46) (funext fun a => Fin.ext ?_)
    match a with
    | ⟨0, _⟩ => show win2_3.index t (0 : Fin 2) * 128 + 1 * q.val = q.val; omega
    | ⟨1, _⟩ => show win2_3.index t (1 : Fin 2) * 128 + 1 * j.val = j.val; omega
  have hB : ∀ j : Fin 128, iblk2 V c 4 t (ix2 0 j) = biasOf V c (ix1 j) := by
    intro j
    show V c main_v49 (((cfg2.win 4).blk t).view.emb (ix2 0 j)) = V c main_v49 (ix2 0 j)
    refine congrArg (V c main_v49) (funext fun a => Fin.ext ?_)
    match a with
    | ⟨0, _⟩ => show win2_4.index t (0 : Fin 2) * 1 + 1 * 0 = 0; omega
    | ⟨1, _⟩ => show win2_4.index t (1 : Fin 2) * 128 + 1 * j.val = j.val; omega
  funext y
  obtain ⟨p, j, rfl⟩ : ∃ (p : Fin 5000) (j : Fin 128), y = ix2 p j := ⟨y 0, y 1, eq_ix2 y⟩
  show k2_pay1 (F := Ideal) (iblk2 V c 0 t) (iblk2 V c 1 t) (iblk2 V c 2 t) (iblk2 V c 3 t) (iblk2 V c 4 t) (ix2 p j)
      = Cert.Spec.layer (V c main_v30) (V c main_v42) (V c main_v44) (V c main_v46) (biasOf V c)
          (((cfg2.win 5).blk t).view.emb (ix2 p j))
  have hi : ((cfg2.win 5).blk t).view.emb (ix2 p j)
      = ix2 (⟨t.val * 5000 + p.val, by have := p.isLt; omega⟩ : Fin 100000) j := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * j.val = j.val; omega
  rw [hi, Cert.Spec.layer_ix2]
  exact stored_eq_layer (iblk2 V c 0 t) (iblk2 V c 1 t) (iblk2 V c 2 t) (iblk2 V c 3 t) (iblk2 V c 4 t)
    (V c main_v30) (V c main_v42) (V c main_v44) (V c main_v46) (biasOf V c)
    (t.val * 5000) hX hNm hWs hWn hB p j _ rfl

/-- An index of the result array is in point t's block iff each coordinate is in the block's range on its axis. -/
theorem mem_block (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v50).slice (win2_5.rect t)).set ↔ _
  rw [View.set_slice_whole, Rect.mem_set_unit]
  exact Iff.rfl

/-- Every index of the result array is in some point's block: row r is in block r / 5000. -/
theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  let t : Fin cfg2.N := (⟨(i 0).val / 5000, (by omega : (i 0).val / 5000 < 20)⟩ : Fin 20)
  have htv : t.val = (i 0).val / 5000 := rfl
  obtain ⟨-, -, -, -, -, -, -, -, -, -, e50, e51⟩ := block_indices t
  refine ⟨t, flush2_5 t, ?_⟩
  rw [mem_block]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- THE RESULT ARRAY after the region is the layer's function of the arrays the region finds. -/
theorem layered (c : Dev nD) :
    (dat2 V c).arrAt 5 cfg2.N
      = Cert.Spec.layer (V c main_v30) (V c main_v42) (V c main_v44) (V c main_v46) (biasOf V c) :=
  (dat2 V c).arrAt_eq_of_cover 5 _ (fun t _ => flushed_eq V c t) (covered)

end Cert.KernelIdeal.Region2
-- ==== Proof.Region3.lean ====
/-
  The third layer region's array.

  The region runs the layer's body at 20 grid points. Point t reads rows 5000·t … 5000·t + 4999 of the node features x
  and of the neighbour means nm (both 100000 × 128), the two whole 128 × 128 weights and the whole bias row, and writes
  rows 5000·t … 5000·t + 4999 of the 100000 × 128 result. So what point t writes back is block t of ONE function of the
  arrays the region finds: entry (5000·t + p, j) is
      max ( ∑ q < 128, x (5000·t + p, q) · ws (q, j) + ∑ q < 128, nm (5000·t + p, q) · wn (q, j) + b (0, j) , 0 ),
  the layer's entry. The 20 blocks tile the result's rows (row r lies in block r / 5000), so after the region the whole
  result array is that function.
-/
import proofs.«173356_j66434554135156_1_alg».proof.Proof.Gen.KernelIdeal.Frame
import proofs.«173356_j66434554135156_1_alg».proof.Proof.KBody
import proofs.«173356_j66434554135156_1_alg».proof.Proof.Spec
import Idealize.ShloMosaic.Lib.Pipeline.Value

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The bias row the region finds, as a vector of 128 entries. -/
def biasOf (c : Dev nD) : FVec Ideal ⟨1, ![128]⟩ .f32 := fun j => V c main_v69 (ix2 0 (j 0))

/-- The block indices of the six windows at point t: the two row blocks read and the row block written move with t,
    the weights and the bias stay. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The body's stored block, over blocks that are rows r0 … r0 + 4999 of x and of nm, the whole weights and a row whose
    entries are b's, is the layer's function at rows r0 … r0 + 4999. -/
theorem stored_eq_layer (X Nm : Vec Ideal S5000x128 .f32) (Ws Wn : Vec Ideal S128x128 .f32) (B : Vec Ideal S1x128 .f32)
    (x nm : FVec Ideal ⟨2, ![100000, 128]⟩ .f32) (ws wn : FVec Ideal ⟨2, ![128, 128]⟩ .f32) (b : FVec Ideal ⟨1, ![128]⟩ .f32)
    (r0 : Nat) (hX : ∀ (p : Fin 5000) (q : Fin 128) (i : Fin 100000), i.val = r0 + p.val → X (ix2 p q) = x (ix2 i q))
    (hNm : ∀ (p : Fin 5000) (q : Fin 128) (i : Fin 100000), i.val = r0 + p.val → Nm (ix2 p q) = nm (ix2 i q))
    (hWs : ∀ (q : Fin 128) (j : Fin 128), Ws (ix2 q j) = ws (ix2 q j))
    (hWn : ∀ (q : Fin 128) (j : Fin 128), Wn (ix2 q j) = wn (ix2 q j)) (hB : ∀ j : Fin 128, B (ix2 0 j) = b (ix1 j))
    (p : Fin 5000) (j : Fin 128) (i : Fin 100000) (hi : i.val = r0 + p.val) :
    k3_pay1 (F := Ideal) X Nm Ws Wn B (ix2 p j) = Cert.Spec.layerAt x nm ws wn b i j := by
  rw [Cert.KernelIdeal.Body.layer_payload3, hB]
  unfold Cert.Spec.layerAt
  refine congrArg₂ (fun s u => max ((s + u) + b (ix1 j)) (Ideal.ofBits .f32 0x00000000#32))
    (Finset.sum_congr rfl fun q _ => ?_) (Finset.sum_congr rfl fun q _ => ?_)
  · rw [hX p q i hi, hWs]
  · rw [hNm p q i hi, hWn]

/-- WHAT POINT t WRITES BACK is block t of the layer's function of the arrays the region finds. -/
theorem flushed_eq (c : Dev nD) (t : Fin cfg3.N) :
    (dat3 V c).flushed 5 t
      = ((cfg3.win 5).blk t).view.read (Elt Ideal)
          (Cert.Spec.layer (V c main_v50) (V c main_v62) (V c main_v64) (V c main_v66) (biasOf V c)) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51⟩ := block_indices t
  have ht : t.val < 20 := t.isLt
  -- the five input blocks, read where the region's arrays hold them
  have hX : ∀ (p : Fin 5000) (q : Fin 128) (i : Fin 100000), i.val = t.val * 5000 + p.val →
      iblk3 V c 0 t (ix2 p q) = V c main_v50 (ix2 i q) := by
    intro p q i hi
    show V c main_v50 (((cfg3.win 0).blk t).view.emb (ix2 p q)) = V c main_v50 (ix2 i q)
    refine congrArg (V c main_v50) (funext fun a => Fin.ext ?_)
    match a with
    | ⟨0, _⟩ => show win3_0.index t (0 : Fin 2) * 5000 + 1 * p.val = i.val; omega
    | ⟨1, _⟩ => show win3_0.index t (1 : Fin 2) * 128 + 1 * q.val = q.val; omega
  have hNm : ∀ (p : Fin 5000) (q : Fin 128) (i : Fin 100000), i.val = t.val * 5000 + p.val →
      iblk3 V c 1 t (ix2 p q) = V c main_v62 (ix2 i q) := by
    intro p q i hi
    show V c main_v62 (((cfg3.win 1).blk t).view.emb (ix2 p q)) = V c main_v62 (ix2 i q)
    refine congrArg (V c main_v62) (funext fun a => Fin.ext ?_)
    match a with
    | ⟨0, _⟩ => show win3_1.index t (0 : Fin 2) * 5000 + 1 * p.val = i.val; omega
    | ⟨1, _⟩ => show win3_1.index t (1 : Fin 2) * 128 + 1 * q.val = q.val; omega
  have hWs : ∀ (q : Fin 128) (j : Fin 128), iblk3 V c 2 t (ix2 q j) = V c main_v64 (ix2 q j) := by
    intro q j
    show V c main_v64 (((cfg3.win 2).blk t).view.emb (ix2 q j)) = V c main_v64 (ix2 q j)
    refine congrArg (V c main_v64) (funext fun a => Fin.ext ?_)
    match a with
    | ⟨0, _⟩ => show win3_2.index t (0 : Fin 2) * 128 + 1 * q.val = q.val; omega
    | ⟨1, _⟩ => show win3_2.index t (1 : Fin 2) * 128 + 1 * j.val = j.val; omega
  have hWn : ∀ (q : Fin 128) (j : Fin 128), iblk3 V c 3 t (ix2 q j) = V c main_v66 (ix2 q j) := by
    intro q j
    show V c main_v66 (((cfg3.win 3).blk t).view.emb (ix2 q j)) = V c main_v66 (ix2 q j)
    refine congrArg (V c main_v66) (funext fun a => Fin.ext ?_)
    match a with
    | ⟨0, _⟩ => show win3_3.index t (0 : Fin 2) * 128 + 1 * q.val = q.val; omega
    | ⟨1, _⟩ => show win3_3.index t (1 : Fin 2) * 128 + 1 * j.val = j.val; omega
  have hB : ∀ j : Fin 128, iblk3 V c 4 t (ix2 0 j) = biasOf V c (ix1 j) := by
    intro j
    show V c main_v69 (((cfg3.win 4).blk t).view.emb (ix2 0 j)) = V c main_v69 (ix2 0 j)
    refine congrArg (V c main_v69) (funext fun a => Fin.ext ?_)
    match a with
    | ⟨0, _⟩ => show win3_4.index t (0 : Fin 2) * 1 + 1 * 0 = 0; omega
    | ⟨1, _⟩ => show win3_4.index t (1 : Fin 2) * 128 + 1 * j.val = j.val; omega
  funext y
  obtain ⟨p, j, rfl⟩ : ∃ (p : Fin 5000) (j : Fin 128), y = ix2 p j := ⟨y 0, y 1, eq_ix2 y⟩
  show k3_pay1 (F := Ideal) (iblk3 V c 0 t) (iblk3 V c 1 t) (iblk3 V c 2 t) (iblk3 V c 3 t) (iblk3 V c 4 t) (ix2 p j)
      = Cert.Spec.layer (V c main_v50) (V c main_v62) (V c main_v64) (V c main_v66) (biasOf V c)
          (((cfg3.win 5).blk t).view.emb (ix2 p j))
  have hi : ((cfg3.win 5).blk t).view.emb (ix2 p j)
      = ix2 (⟨t.val * 5000 + p.val, by have := p.isLt; omega⟩ : Fin 100000) j := by
    funext a; apply Fin.ext
    match a with
    | ⟨0, _⟩ => show win3_5.index t (0 : Fin 2) * 5000 + 1 * p.val = t.val * 5000 + p.val; omega
    | ⟨1, _⟩ => show win3_5.index t (1 : Fin 2) * 128 + 1 * j.val = j.val; omega
  rw [hi, Cert.Spec.layer_ix2]
  exact stored_eq_layer (iblk3 V c 0 t) (iblk3 V c 1 t) (iblk3 V c 2 t) (iblk3 V c 3 t) (iblk3 V c 4 t)
    (V c main_v50) (V c main_v62) (V c main_v64) (V c main_v66) (biasOf V c)
    (t.val * 5000) hX hNm hWs hWn hB p j _ rfl

/-- An index of the result array is in point t's block iff each coordinate is in the block's range on its axis. -/
theorem mem_block (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v70).slice (win3_5.rect t)).set ↔ _
  rw [View.set_slice_whole, Rect.mem_set_unit]
  exact Iff.rfl

/-- Every index of the result array is in some point's block: row r is in block r / 5000. -/
theorem covered (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  let t : Fin cfg3.N := (⟨(i 0).val / 5000, (by omega : (i 0).val / 5000 < 20)⟩ : Fin 20)
  have htv : t.val = (i 0).val / 5000 := rfl
  obtain ⟨-, -, -, -, -, -, -, -, -, -, e50, e51⟩ := block_indices t
  refine ⟨t, flush3_5 t, ?_⟩
  rw [mem_block]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- THE RESULT ARRAY after the region is the layer's function of the arrays the region finds. -/
theorem layered (c : Dev nD) :
    (dat3 V c).arrAt 5 cfg3.N
      = Cert.Spec.layer (V c main_v50) (V c main_v62) (V c main_v64) (V c main_v66) (biasOf V c) :=
  (dat3 V c).arrAt_eq_of_cover 5 _ (fun t _ => flushed_eq V c t) (covered)

end Cert.KernelIdeal.Region3
-- ==== Proof.KGlue.lean ====
/-
  The kernel program's host operations between its regions, as named functions, and what they mean.

  Between two regions the program (i) wraps negative source ids by adding 100000 and gathers the source nodes' feature
  rows, (ii) adds each gathered row into its destination node's row (the neighbour sum), (iii) multiplies every row of the
  neighbour sum by the node's reciprocal 1 / max (degree, 1), where the degree is the number of edges that end at the
  node, counted once before the first layer by adding a one per edge into its destination, and (iv) cuts the layer's two
  128 × 128 weights and its bias out of the stacked inputs.

  The gather and the two scatter-adds are never opened here: the other program applies the same ones to the same
  arguments. What is proved is
  * the neighbour mean in quotient form: the product with the reciprocal 1 / max (degree, 1) IS the quotient by
    max (degree, 1), entry by entry, since the divisor, at least one, is not zero (the numerator may be any extended
    real);
  * a 128-vector laid out as a 1 × 128 row, read at (0, j), is the vector's entry j.
-/
import proofs.«173356_j66434554135156_1_alg».proof.Proof.Gen.KernelIdeal
import proofs.«173356_j66434554135156_1_alg».proof.Proof.Spec
import Idealize.ShloMosaic.Lib.Pipeline.Value
import Idealize.ShloMosaic.Lib.ValueIdx

set_option maxRecDepth 16384

noncomputable section

namespace Cert.KernelIdeal.Glue

open Idealize.ShloMosaic Idealize.ShloMosaic.ValueIdx Cert.KernelIdeal Cert.KernelIdeal.Gen

/-! ## The operations, named -/

/-- The gather's index array: a negative source id is wrapped by adding 100000, and the ids are laid out as a column. -/
def gatherIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sum: every edge's source row added into its destination's row of an all-zero array. -/
def neighSum (src dst : IVec S1600000 32)
    (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (gatherIdx src))

/-- max (degree, 1): a one per edge added into its destination's entry of an all-zero vector, then the larger of that
    and one. -/
def degMax (dst : IVec S1600000 32) : FVec Ideal S100000 .f32 :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The reciprocals 1 / max (degree, 1), as a column. -/
def recip (dst : IVec S1600000 32) : FVec Ideal S100000x1 .f32 :=
  broadcastInDim S100000x1 ![0] bcast_S100000_S100000x1_0
    (Host.divf (broadcastInDim S100000 ![] bcast_S_S100000 (constant (F := Ideal) S_ .f32 0x3F800000#32)) (degMax dst))

/-- The neighbour mean as this program computes it: the neighbour sum times the reciprocal column repeated along the
    rows. -/
def mean (src dst : IVec S1600000 32)
    (h : FVec Ideal S100000x128 .f32) : FVec Ideal S100000x128 .f32 :=
  mulf (neighSum src dst h) (broadcastInDim S100000x128 ![0, 1] bcast_S100000x1_S100000x128_0_1 (recip dst))

/-- The neighbour mean in quotient form: the neighbour sum over max (degree, 1) repeated along the rows. -/
def meanQuot (src dst : IVec S1600000 32)
    (h : FVec Ideal S100000x128 .f32) : FVec Ideal S100000x128 .f32 :=
  Host.divf (neighSum src dst h)
    (broadcastInDim S100000x128 ![0, 1] bcast_S100000x1_S100000x128_0_1
      (broadcastInDim S100000x1 ![0] bcast_S100000_S100000x1_0 (degMax dst)))

/-- Layer l's slice of a stacked 3 × 128 × 128 weight, as a 128 × 128 array. -/
def weight (l : Fin 3) (w : FVec Ideal S3x128x128 .f32) : FVec Ideal S128x128 .f32 :=
  match l with
  | 0 => shapeCast S128x128 (extractStridedSlice S1x128x128 ![0, 0, 0] w slices_S3x128x128_S1x128x128_0_0_0) shapeCasts_S1x128x128_S128x128
  | 1 => shapeCast S128x128 (extractStridedSlice S1x128x128 ![1, 0, 0] w slices_S3x128x128_S1x128x128_1_0_0) shapeCasts_S1x128x128_S128x128
  | 2 => shapeCast S128x128 (extractStridedSlice S1x128x128 ![2, 0, 0] w slices_S3x128x128_S1x128x128_2_0_0) shapeCasts_S1x128x128_S128x128

/-- Layer l's slice of the stacked 3 × 128 bias, as a 128-vector. -/
def bias (l : Fin 3) (b : FVec Ideal S3x128 .f32) : FVec Ideal S128 .f32 :=
  match l with
  | 0 => shapeCast S128 (extractStridedSlice S1x128 ![0, 0] b slices_S3x128_S1x128_0_0) shapeCasts_S1x128_S128
  | 1 => shapeCast S128 (extractStridedSlice S1x128 ![1, 0] b slices_S3x128_S1x128_1_0) shapeCasts_S1x128_S128
  | 2 => shapeCast S128 (extractStridedSlice S1x128 ![2, 0] b slices_S3x128_S1x128_2_0) shapeCasts_S1x128_S128

/-! ## A vector laid out as a row -/

/-- A 128-vector reshaped to a 1 × 128 row, read at (0, j), is the vector's entry j. -/
theorem row_of_vector (v : FVec Ideal S128 .f32) (j : Fin 128) :
    shapeCast S1x128 v shapeCasts_S128_S1x128 (ix2 0 j) = v (ix1 j) :=
  shapeCast_apply v shapeCasts_S128_S1x128 (ix2 0 j) (ix1 j) (by
    rw [Shape.rowMajor_val_one, Shape.rowMajor_val_two]
    show j.val = 0 * 128 + j.val
    omega)

/-- So the row's entries (0, ·), collected as a vector, are the vector. -/
theorem vector_of_row (v : FVec Ideal S128 .f32) :
    (fun j : (⟨1, ![128]⟩ : Shape).Idx => shapeCast S1x128 v shapeCasts_S128_S1x128 (ix2 0 (j 0))) = v := by
  funext j
  obtain ⟨q, rfl⟩ : ∃ q : Fin 128, j = ix1 q := ⟨j 0, eq_ix1 j⟩
  exact row_of_vector v q

/-! ## The product with the reciprocal is the quotient -/

/-- A column repeated along the rows, read at (p, j), is the column's entry for row p. -/
theorem column_rows (col : FVec Ideal S100000x1 .f32) (p : Fin 100000) (j : Fin 128) :
    broadcastInDim S100000x128 ![0, 1] bcast_S100000x1_S100000x128_0_1 col (ix2 p j) = col (ix2 p 0) :=
  broadcastInDim_apply ![0, 1] bcast_S100000x1_S100000x128_0_1 col (ix2 p j) (ix2 p 0) (fun a => by
    match a with
    | ⟨0, _⟩ => rfl
    | ⟨1, _⟩ => rfl)

/-- A vector laid out as a column, read at (p, 0), is the vector's entry p. -/
theorem column_of_vector (v : FVec Ideal S100000 .f32) (p : Fin 100000) :
    broadcastInDim S100000x1 ![0] bcast_S100000_S100000x1_0 v (ix2 p 0) = v (ix1 p) :=
  broadcastInDim_apply ![0] bcast_S100000_S100000x1_0 v (ix2 p 0) (ix1 p) (fun a => by
    match a with
    | ⟨0, _⟩ => rfl)

/-- A scalar repeated over the 100000-vector is that scalar at every entry. -/
theorem scalar_vector (z : FVec Ideal S_ .f32) (i : S100000.Idx) :
    broadcastInDim S100000 ![] bcast_S_S100000 z i = z ix0 :=
  broadcastInDim_apply ![] bcast_S_S100000 z i ix0 (fun a => a.elim0)

/-- max (degree, 1) is never zero. -/
theorem degMax_ne_zero (dst : IVec S1600000 32) (p : Fin 100000) :
    (degMax dst (ix1 p) : EReal) ≠ 0 := by
  unfold degMax
  refine (congrArg (· ≠ (0 : EReal)) ((maximumf_apply _ _ (ix1 p)).trans
    (congrArg (max _) ((scalar_vector _ (ix1 p)).trans (constant_apply (s := S_) (φ := .f32) 0x3F800000#32 ix0))))).mpr ?_
  exact Cert.Spec.max_one_ne_zero _

/-- The host's quotient of two arrays, read at an entry, is the quotient of the entries. -/
theorem hostDivf_at {s : Shape} (a b : FVec Ideal s .f32) (i : s.Idx) : Host.divf a b i = Ideal.div (a i) (b i) := rfl

/-- The reciprocal column repeated along the rows, read at (p, j), is 1 / max (degree, 1) of node p. -/
theorem recip_rows (dst : IVec S1600000 32) (p : Fin 100000) (j : Fin 128) :
    broadcastInDim S100000x128 ![0, 1] bcast_S100000x1_S100000x128_0_1 (recip dst) (ix2 p j)
      = Ideal.div 1 (degMax dst (ix1 p)) := by
  refine (column_rows (recip dst) p j).trans ?_
  unfold recip
  refine (column_of_vector _ p).trans ?_
  refine (hostDivf_at _ _ (ix1 p)).trans ?_
  refine congrArg (fun z => Ideal.div z (degMax dst (ix1 p))) ?_
  refine (scalar_vector _ (ix1 p)).trans ?_
  exact (constant_apply (s := S_) (φ := .f32) 0x3F800000#32 ix0).trans Ideal.ofBits_one_f32

/-- max (degree, 1) laid out as a column and repeated along the rows, read at (p, j), is node p's. -/
theorem degMax_rows (dst : IVec S1600000 32) (p : Fin 100000) (j : Fin 128) :
    broadcastInDim S100000x128 ![0, 1] bcast_S100000x1_S100000x128_0_1
        (broadcastInDim S100000x1 ![0] bcast_S100000_S100000x1_0 (degMax dst)) (ix2 p j)
      = degMax dst (ix1 p) :=
  (column_rows _ p j).trans (column_of_vector _ p)

/-- THE NEIGHBOUR MEAN: the product with the reciprocal is the quotient, at every entry. -/
theorem mean_eq_meanQuot (src dst : IVec S1600000 32) (h : FVec Ideal S100000x128 .f32) :
    mean src dst h = meanQuot src dst h := by
  funext i
  obtain ⟨p, j, rfl⟩ : ∃ (p : Fin 100000) (j : Fin 128), i = ix2 p j := ⟨i 0, i 1, eq_ix2 i⟩
  unfold mean meanQuot
  refine (mulf_apply _ _ (ix2 p j)).trans ?_
  refine Eq.trans ?_ (hostDivf_at _ _ (ix2 p j)).symm
  rw [recip_rows, degMax_rows]
  exact Cert.Spec.mul_one_div_eq_div _ _ (degMax_ne_zero dst p)

end Cert.KernelIdeal.Glue
-- ==== Proof.HostReads.lean ====
/-
  What each region of the kernel program finds in the buffers it reads.

  The program's buffer contents are followed from the launch through its four regions. No host operation and no region
  ever writes the source ids, the destination ids or the three stacked parameter inputs, so at every boundary they hold
  what they held at launch. Before the encoder region the bias vector has been laid out as a row. Before each layer
  region the host operations have left, in the five buffers the region reads: the previous region's result, untouched;
  the neighbour mean of that result (the neighbour sum times the reciprocal column, which is computed once, before the
  first layer, and not written again); the layer's slices of the two stacked weights; and the layer's slice of the
  stacked bias, laid out as a row.
-/
import proofs.«173356_j66434554135156_1_alg».proof.Proof.Gen.KernelIdeal.Frame
import proofs.«173356_j66434554135156_1_alg».proof.Proof.KGlue
import Idealize.ShloMosaic.Lib.StableHlo.Run

set_option maxRecDepth 16384

noncomputable section

namespace Cert.KernelIdeal.HostReads

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- No operation of a literal stretch writes a literal buffer: each operation's one result buffer is another. -/
local macro "untouched" : tactic => `(tactic| (
  refine List.forall_iff_forall_mem.mp ?_
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The inputs no one writes -/

/-- A buffer that no host stretch writes and no region stages holds its launch contents when each layer's host
    operations begin. -/
theorem kept (b : Ref sig .tc) (c : Dev nD)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h2 : ∀ op ∈ (hostOps2 : List (HloOp τ sig (Elt Ideal))), Proc.devRef .tc b ∉ op.writes)
    (r0 : ∀ w, Pipeline.arrRef spec0 w ≠ b) (r1 : ∀ w, Pipeline.arrRef spec1 w ≠ b) (r2 : ∀ w, Pipeline.arrRef spec2 w ≠ b) :
    W2 m ρ c (Proc.devRef .tc b) = m ((c : Thread nD τ).loc b)
    ∧ W4 m ρ c (Proc.devRef .tc b) = m ((c : Thread nD τ).loc b)
    ∧ W6 m ρ c (Proc.devRef .tc b) = m ((c : Thread nD τ).loc b) := by
  have e1 : W1 m ρ c (Proc.devRef .tc b) = m ((c : Thread nD τ).loc b) :=
    StableHlo.after_of_forall_not_mem (b := Proc.devRef .tc b) _ _ h0
  have e2 : W2 m ρ c (Proc.devRef .tc b) = m ((c : Thread nD τ).loc b) := (W2_of_ne m ρ c b r0).trans e1
  have e3 : W3 m ρ c (Proc.devRef .tc b) = m ((c : Thread nD τ).loc b) :=
    (StableHlo.after_of_forall_not_mem (b := Proc.devRef .tc b) _ _ h1).trans e2
  have e4 : W4 m ρ c (Proc.devRef .tc b) = m ((c : Thread nD τ).loc b) := (W4_of_ne m ρ c b r1).trans e3
  have e5 : W5 m ρ c (Proc.devRef .tc b) = m ((c : Thread nD τ).loc b) :=
    (StableHlo.after_of_forall_not_mem (b := Proc.devRef .tc b) _ _ h2).trans e4
  have e6 : W6 m ρ c (Proc.devRef .tc b) = m ((c : Thread nD τ).loc b) := (W6_of_ne m ρ c b r2).trans e5
  exact ⟨e2, e4, e6⟩

theorem src_kept (c : Dev nD) :
    W2 m ρ c (Proc.devRef .tc main_arg1) = m ((c : Thread nD τ).loc main_arg1)
    ∧ W4 m ρ c (Proc.devRef .tc main_arg1) = m ((c : Thread nD τ).loc main_arg1)
    ∧ W6 m ρ c (Proc.devRef .tc main_arg1) = m ((c : Thread nD τ).loc main_arg1) :=
  kept m ρ main_arg1 c (by untouched) (by untouched) (by untouched) (by decide) (by decide) (by decide)
theorem dst_kept (c : Dev nD) :
    W2 m ρ c (Proc.devRef .tc main_arg2) = m ((c : Thread nD τ).loc main_arg2)
    ∧ W4 m ρ c (Proc.devRef .tc main_arg2) = m ((c : Thread nD τ).loc main_arg2)
    ∧ W6 m ρ c (Proc.devRef .tc main_arg2) = m ((c : Thread nD τ).loc main_arg2) :=
  kept m ρ main_arg2 c (by untouched) (by untouched) (by untouched) (by decide) (by decide) (by decide)
theorem wself_kept (c : Dev nD) :
    W2 m ρ c (Proc.devRef .tc main_arg5) = m ((c : Thread nD τ).loc main_arg5)
    ∧ W4 m ρ c (Proc.devRef .tc main_arg5) = m ((c : Thread nD τ).loc main_arg5)
    ∧ W6 m ρ c (Proc.devRef .tc main_arg5) = m ((c : Thread nD τ).loc main_arg5) :=
  kept m ρ main_arg5 c (by untouched) (by untouched) (by untouched) (by decide) (by decide) (by decide)
theorem wneigh_kept (c : Dev nD) :
    W2 m ρ c (Proc.devRef .tc main_arg6) = m ((c : Thread nD τ).loc main_arg6)
    ∧ W4 m ρ c (Proc.devRef .tc main_arg6) = m ((c : Thread nD τ).loc main_arg6)
    ∧ W6 m ρ c (Proc.devRef .tc main_arg6) = m ((c : Thread nD τ).loc main_arg6) :=
  kept m ρ main_arg6 c (by untouched) (by untouched) (by untouched) (by decide) (by decide) (by decide)
theorem bsage_kept (c : Dev nD) :
    W2 m ρ c (Proc.devRef .tc main_arg7) = m ((c : Thread nD τ).loc main_arg7)
    ∧ W4 m ρ c (Proc.devRef .tc main_arg7) = m ((c : Thread nD τ).loc main_arg7)
    ∧ W6 m ρ c (Proc.devRef .tc main_arg7) = m ((c : Thread nD τ).loc main_arg7) :=
  kept m ρ main_arg7 c (by untouched) (by untouched) (by untouched) (by decide) (by decide) (by decide)

/-! ## What the encoder region finds -/

theorem enc_x (c : Dev nD) : V1 m ρ c main_arg0 = m ((c : Thread nD τ).loc main_arg0) := by
  show StableHlo.after hostOps0 (W0 m ρ c) (Proc.devRef .tc main_arg0) = _
  after_results_simp
theorem enc_w (c : Dev nD) : V1 m ρ c main_arg3 = m ((c : Thread nD τ).loc main_arg3) := by
  show StableHlo.after hostOps0 (W0 m ρ c) (Proc.devRef .tc main_arg3) = _
  after_results_simp
theorem enc_b (c : Dev nD) :
    V1 m ρ c main_v0 = shapeCast S1x128 (m ((c : Thread nD τ).loc main_arg4)) shapeCasts_S128_S1x128 := by
  show StableHlo.after hostOps0 (W0 m ρ c) (Proc.devRef .tc main_v0) = _
  after_results_simp
  rfl

/-! ## The reciprocal column: computed before the first layer, read by all three -/

theorem recip1 (c : Dev nD) : W3 m ρ c (Proc.devRef .tc main_v10) = Glue.recip (m ((c : Thread nD τ).loc main_arg2)) := by
  show StableHlo.after hostOps1 (W2 m ρ c) (Proc.devRef .tc main_v10) = _
  after_results_simp
  rw [(dst_kept m ρ c).1]
  rfl
theorem recip2 (c : Dev nD) : W4 m ρ c (Proc.devRef .tc main_v10) = Glue.recip (m ((c : Thread nD τ).loc main_arg2)) :=
  (W4_of_ne m ρ c main_v10 (by decide)).trans (recip1 m ρ c)
theorem recip3 (c : Dev nD) : W6 m ρ c (Proc.devRef .tc main_v10) = Glue.recip (m ((c : Thread nD τ).loc main_arg2)) :=
  (W6_of_ne m ρ c main_v10 (by decide)).trans
    ((StableHlo.after_of_forall_not_mem (b := Proc.devRef .tc main_v10) _ _ (by untouched)).trans (recip2 m ρ c))

/-! ## What the first layer region finds -/

theorem l1_x (c : Dev nD) : V3 m ρ c main_v1 = V2 m ρ c main_v1 := by
  show StableHlo.after hostOps1 (W2 m ρ c) (Proc.devRef .tc main_v1) = _
  after_results_simp
set_option maxHeartbeats 4000000 in
theorem l1_nm (c : Dev nD) :
    V3 m ρ c main_v22
      = Glue.mean (m ((c : Thread nD τ).loc main_arg1)) (m ((c : Thread nD τ).loc main_arg2)) (V2 m ρ c main_v1) := by
  show StableHlo.after hostOps1 (W2 m ρ c) (Proc.devRef .tc main_v22) = _
  after_results_simp
  rw [(src_kept m ρ c).1, (dst_kept m ρ c).1]
  rfl
theorem l1_ws (c : Dev nD) : V3 m ρ c main_v24 = Glue.weight 0 (m ((c : Thread nD τ).loc main_arg5)) := by
  show StableHlo.after hostOps1 (W2 m ρ c) (Proc.devRef .tc main_v24) = _
  after_results_simp
  rw [(wself_kept m ρ c).1]
  rfl
theorem l1_wn (c : Dev nD) : V3 m ρ c main_v26 = Glue.weight 0 (m ((c : Thread nD τ).loc main_arg6)) := by
  show StableHlo.after hostOps1 (W2 m ρ c) (Proc.devRef .tc main_v26) = _
  after_results_simp
  rw [(wneigh_kept m ρ c).1]
  rfl
theorem l1_b (c : Dev nD) :
    V3 m ρ c main_v29 = shapeCast S1x128 (Glue.bias 0 (m ((c : Thread nD τ).loc main_arg7))) shapeCasts_S128_S1x128 := by
  show StableHlo.after hostOps1 (W2 m ρ c) (Proc.devRef .tc main_v29) = _
  after_results_simp
  rw [(bsage_kept m ρ c).1]
  rfl

/-! ## What the second layer region finds -/

theorem l2_x (c : Dev nD) : V5 m ρ c main_v30 = V4 m ρ c main_v30 := by
  show StableHlo.after hostOps2 (W4 m ρ c) (Proc.devRef .tc main_v30) = _
  after_results_simp
set_option maxHeartbeats 4000000 in
theorem l2_nm (c : Dev nD) :
    V5 m ρ c main_v42
      = Glue.mean (m ((c : Thread nD τ).loc main_arg1)) (m ((c : Thread nD τ).loc main_arg2)) (V4 m ρ c main_v30) := by
  show StableHlo.after hostOps2 (W4 m ρ c) (Proc.devRef .tc main_v42) = _
  after_results_simp
  rw [(src_kept m ρ c).2.1, (dst_kept m ρ c).2.1, recip2 m ρ c]
  rfl
theorem l2_ws (c : Dev nD) : V5 m ρ c main_v44 = Glue.weight 1 (m ((c : Thread nD τ).loc main_arg5)) := by
  show StableHlo.after hostOps2 (W4 m ρ c) (Proc.devRef .tc main_v44) = _
  after_results_simp
  rw [(wself_kept m ρ c).2.1]
  rfl
theorem l2_wn (c : Dev nD) : V5 m ρ c main_v46 = Glue.weight 1 (m ((c : Thread nD τ).loc main_arg6)) := by
  show StableHlo.after hostOps2 (W4 m ρ c) (Proc.devRef .tc main_v46) = _
  after_results_simp
  rw [(wneigh_kept m ρ c).2.1]
  rfl
theorem l2_b (c : Dev nD) :
    V5 m ρ c main_v49 = shapeCast S1x128 (Glue.bias 1 (m ((c : Thread nD τ).loc main_arg7))) shapeCasts_S128_S1x128 := by
  show StableHlo.after hostOps2 (W4 m ρ c) (Proc.devRef .tc main_v49) = _
  after_results_simp
  rw [(bsage_kept m ρ c).2.1]
  rfl

/-! ## What the third layer region finds -/

theorem l3_x (c : Dev nD) : V7 m ρ c main_v50 = V6 m ρ c main_v50 := by
  show StableHlo.after hostOps3 (W6 m ρ c) (Proc.devRef .tc main_v50) = _
  after_results_simp
set_option maxHeartbeats 4000000 in
theorem l3_nm (c : Dev nD) :
    V7 m ρ c main_v62
      = Glue.mean (m ((c : Thread nD τ).loc main_arg1)) (m ((c : Thread nD τ).loc main_arg2)) (V6 m ρ c main_v50) := by
  show StableHlo.after hostOps3 (W6 m ρ c) (Proc.devRef .tc main_v62) = _
  after_results_simp
  rw [(src_kept m ρ c).2.2, (dst_kept m ρ c).2.2, recip3 m ρ c]
  rfl
theorem l3_ws (c : Dev nD) : V7 m ρ c main_v64 = Glue.weight 2 (m ((c : Thread nD τ).loc main_arg5)) := by
  show StableHlo.after hostOps3 (W6 m ρ c) (Proc.devRef .tc main_v64) = _
  after_results_simp
  rw [(wself_kept m ρ c).2.2]
  rfl
theorem l3_wn (c : Dev nD) : V7 m ρ c main_v66 = Glue.weight 2 (m ((c : Thread nD τ).loc main_arg6)) := by
  show StableHlo.after hostOps3 (W6 m ρ c) (Proc.devRef .tc main_v66) = _
  after_results_simp
  rw [(wneigh_kept m ρ c).2.2]
  rfl
theorem l3_b (c : Dev nD) :
    V7 m ρ c main_v69 = shapeCast S1x128 (Glue.bias 2 (m ((c : Thread nD τ).loc main_arg7))) shapeCasts_S128_S1x128 := by
  show StableHlo.after hostOps3 (W6 m ρ c) (Proc.devRef .tc main_v69) = _
  after_results_simp
  rw [(bsage_kept m ρ c).2.2]
  rfl

end Cert.KernelIdeal.HostReads
-- ==== Proof.Network.lean ====
/-
  The whole network as a composition.

  From the encoded features h0 the network applies the layer three times; layer l takes the current features h, their
  neighbour mean (a function `mean` of h, the same at every layer: it depends on the graph only), and the l-th slices of
  the weights and of the bias. How the neighbour mean, the weight slices and the bias slices are obtained from the inputs
  is each program's own (and the two programs obtain them by the same operations); this definition only fixes how the
  pieces are put together, so that two programs with equal pieces have equal results.
-/
import proofs.«173356_j66434554135156_1_alg».proof.Proof.Spec

noncomputable section

namespace Cert.Spec

open Idealize.ShloMosaic

/-- The three layers over the encoded features. -/
def network (h0 : FVec Ideal ⟨2, ![100000, 128]⟩ .f32)
    (mean : FVec Ideal ⟨2, ![100000, 128]⟩ .f32 → FVec Ideal ⟨2, ![100000, 128]⟩ .f32)
    (ws wn : Fin 3 → FVec Ideal ⟨2, ![128, 128]⟩ .f32) (b : Fin 3 → FVec Ideal ⟨1, ![128]⟩ .f32) :
    FVec Ideal ⟨2, ![100000, 128]⟩ .f32 :=
  layer (layer (layer h0 (mean h0) (ws 0) (wn 0) (b 0))
            (mean (layer h0 (mean h0) (ws 0) (wn 0) (b 0))) (ws 1) (wn 1) (b 1))
    (mean (layer (layer h0 (mean h0) (ws 0) (wn 0) (b 0))
            (mean (layer h0 (mean h0) (ws 0) (wn 0) (b 0))) (ws 1) (wn 1) (b 1))) (ws 2) (wn 2) (b 2)

/-- Equal pieces give equal networks. -/
theorem network_congr {h0 h0' : FVec Ideal ⟨2, ![100000, 128]⟩ .f32}
    {mean mean' : FVec Ideal ⟨2, ![100000, 128]⟩ .f32 → FVec Ideal ⟨2, ![100000, 128]⟩ .f32}
    {ws ws' wn wn' : Fin 3 → FVec Ideal ⟨2, ![128, 128]⟩ .f32} {b b' : Fin 3 → FVec Ideal ⟨1, ![128]⟩ .f32}
    (h0e : h0 = h0') (me : mean = mean') (wse : ws = ws') (wne : wn = wn') (be : b = b') :
    network h0 mean ws wn b = network h0' mean' ws' wn' b' := by
  subst h0e me wse wne be; rfl

end Cert.Spec
-- ==== Proof.KValue.lean ====
/-
  The kernel program's result is the network of its pieces.

  Followed through the four regions, the buffer the program returns holds: the encoder's function of the first three float
  inputs after the encoder region; and after each layer region the layer's function of the previous region's result, of that
  result's neighbour mean (the neighbour sum times the reciprocal of max (degree, 1)), and of the layer's slices of the stacked
  weights and bias. Each region's array is read by that region's own lemma, what the region finds in its buffers by the
  lemmas on the host operations, and a bias slice that was laid out as a row is read back as the vector it came from.
-/
import proofs.«173356_j66434554135156_1_alg».proof.Proof.Region0
import proofs.«173356_j66434554135156_1_alg».proof.Proof.Region1
import proofs.«173356_j66434554135156_1_alg».proof.Proof.Region2
import proofs.«173356_j66434554135156_1_alg».proof.Proof.Region3
import proofs.«173356_j66434554135156_1_alg».proof.Proof.HostReads
import proofs.«173356_j66434554135156_1_alg».proof.Proof.Network

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- After the encoder region: the encoder's function of the inputs. -/
theorem after_encoder (c : Dev nD) :
    V2 m ρ c main_v1
      = Cert.Spec.encode (m ((c : Thread nD τ).loc main_arg0)) (m ((c : Thread nD τ).loc main_arg3))
          (m ((c : Thread nD τ).loc main_arg4)) := by
  show W2 m ρ c (Proc.devRef .tc (Pipeline.arrRef spec0 3)) = _
  rw [W2_arr m ρ c 3, Region0.encoded (V1 m ρ) c, HostReads.enc_x m ρ c, HostReads.enc_w m ρ c]
  refine congrArg (Cert.Spec.encode (m ((c : Thread nD τ).loc main_arg0)) (m ((c : Thread nD τ).loc main_arg3))) ?_
  unfold Region0.biasOf
  rw [HostReads.enc_b m ρ c]
  exact Glue.vector_of_row _

/-- After the first layer region: the layer's function of the encoded features and their neighbour mean. -/
theorem after_layer1 (c : Dev nD) :
    V4 m ρ c main_v30
      = Cert.Spec.layer (V2 m ρ c main_v1)
          (Glue.mean (m ((c : Thread nD τ).loc main_arg1)) (m ((c : Thread nD τ).loc main_arg2)) (V2 m ρ c main_v1))
          (Glue.weight 0 (m ((c : Thread nD τ).loc main_arg5))) (Glue.weight 0 (m ((c : Thread nD τ).loc main_arg6)))
          (Glue.bias 0 (m ((c : Thread nD τ).loc main_arg7))) := by
  show W4 m ρ c (Proc.devRef .tc (Pipeline.arrRef spec1 5)) = _
  rw [W4_arr m ρ c 5, Region1.layered (V3 m ρ) c, HostReads.l1_x m ρ c, HostReads.l1_nm m ρ c, HostReads.l1_ws m ρ c,
    HostReads.l1_wn m ρ c]
  refine congrArg (Cert.Spec.layer _ _ _ _) ?_
  unfold Region1.biasOf
  rw [HostReads.l1_b m ρ c]
  exact Glue.vector_of_row _

/-- After the second layer region. -/
theorem after_layer2 (c : Dev nD) :
    V6 m ρ c main_v50
      = Cert.Spec.layer (V4 m ρ c main_v30)
          (Glue.mean (m ((c : Thread nD τ).loc main_arg1)) (m ((c : Thread nD τ).loc main_arg2)) (V4 m ρ c main_v30))
          (Glue.weight 1 (m ((c : Thread nD τ).loc main_arg5))) (Glue.weight 1 (m ((c : Thread nD τ).loc main_arg6)))
          (Glue.bias 1 (m ((c : Thread nD τ).loc main_arg7))) := by
  show W6 m ρ c (Proc.devRef .tc (Pipeline.arrRef spec2 5)) = _
  rw [W6_arr m ρ c 5, Region2.layered (V5 m ρ) c, HostReads.l2_x m ρ c, HostReads.l2_nm m ρ c, HostReads.l2_ws m ρ c,
    HostReads.l2_wn m ρ c]
  refine congrArg (Cert.Spec.layer _ _ _ _) ?_
  unfold Region2.biasOf
  rw [HostReads.l2_b m ρ c]
  exact Glue.vector_of_row _

/-- After the third layer region. -/
theorem after_layer3 (c : Dev nD) :
    W8 m ρ c (Proc.devRef .tc main_v70)
      = Cert.Spec.layer (V6 m ρ c main_v50)
          (Glue.mean (m ((c : Thread nD τ).loc main_arg1)) (m ((c : Thread nD τ).loc main_arg2)) (V6 m ρ c main_v50))
          (Glue.weight 2 (m ((c : Thread nD τ).loc main_arg5))) (Glue.weight 2 (m ((c : Thread nD τ).loc main_arg6)))
          (Glue.bias 2 (m ((c : Thread nD τ).loc main_arg7))) := by
  show W8 m ρ c (Proc.devRef .tc (Pipeline.arrRef spec3 5)) = _
  rw [W8_arr m ρ c 5, Region3.layered (V7 m ρ) c, HostReads.l3_x m ρ c, HostReads.l3_nm m ρ c, HostReads.l3_ws m ρ c,
    HostReads.l3_wn m ρ c]
  refine congrArg (Cert.Spec.layer _ _ _ _) ?_
  unfold Region3.biasOf
  rw [HostReads.l3_b m ρ c]
  exact Glue.vector_of_row _

/-- THE KERNEL PROGRAM'S RESULT is the network of its pieces. -/
theorem result_eq (c : Dev nD) :
    W8 m ρ c (Proc.devRef .tc main_v70)
      = Cert.Spec.network
          (Cert.Spec.encode (m ((c : Thread nD τ).loc main_arg0)) (m ((c : Thread nD τ).loc main_arg3))
            (m ((c : Thread nD τ).loc main_arg4)))
          (Glue.mean (m ((c : Thread nD τ).loc main_arg1)) (m ((c : Thread nD τ).loc main_arg2)))
          (fun l => Glue.weight l (m ((c : Thread nD τ).loc main_arg5)))
          (fun l => Glue.weight l (m ((c : Thread nD τ).loc main_arg6)))
          (fun l => Glue.bias l (m ((c : Thread nD τ).loc main_arg7))) := by
  rw [after_layer3 m ρ c, after_layer2 m ρ c, after_layer1 m ρ c, after_encoder m ρ c]
  rfl

end Cert.KernelIdeal.Result
-- ==== Proof.RefSteps.lean ====
/-
  The reference's two whole-array steps are the encoder's and the layer's functions.

  The reference computes each step on whole arrays. Read at entry (p, j):
  * the encoder step, tanh (x · w + bias repeated down the rows), is tanh ( ∑ q < 117, x (p, q) · w (q, j) + b (j) ):
    the matrix product at an entry is the row-by-column sum, and the bias vector, first laid out as a 1 × 128 row and
    then repeated down 100000 rows, is b (j) at every row;
  * the layer step, max (x · ws + nm · wn + bias repeated, 0 repeated), is
    max ( ∑ q < 128, x (p, q) · ws (q, j) + ∑ q < 128, nm (p, q) · wn (q, j) + b (j) , 0 ).
-/
import proofs.«173356_j66434554135156_1_alg».proof.Proof.Gen.ReferenceIdeal
import proofs.«173356_j66434554135156_1_alg».proof.Proof.LibDotPlain
import proofs.«173356_j66434554135156_1_alg».proof.Proof.Spec
import Idealize.ShloMosaic.Lib.Pipeline.Value
import Idealize.ShloMosaic.Lib.ValueIdx

noncomputable section

open scoped BigOperators

namespace Cert.ReferenceIdeal.Steps

open Idealize.ShloMosaic Idealize.ShloMosaic.ValueIdx Cert.ReferenceIdeal Cert.ReferenceIdeal.Gen

/-- The bias vector laid out as a row and repeated down the 100000 rows, read at (p, j), is its entry j. -/
theorem bias_rows (b : FVec Ideal S128 .f32) (p : Fin 100000) (j : Fin 128) :
    broadcastInDim S100000x128 ![0, 1] bcast_S1x128_S100000x128_0_1 (broadcastInDim S1x128 ![1] bcast_S128_S1x128_1 b)
      (ix2 p j) = b (ix1 j) := by
  rw [broadcastInDim_apply ![0, 1] bcast_S1x128_S100000x128_0_1 _ (ix2 p j) (ix2 0 j) (fun a => by
    match a with
    | ⟨0, _⟩ => rfl
    | ⟨1, _⟩ => rfl)]
  exact broadcastInDim_apply ![1] bcast_S128_S1x128_1 b (ix2 0 j) (ix1 j) (fun a => by
    match a with
    | ⟨0, _⟩ => rfl)

/-- A scalar repeated over the 100000 × 128 array is that scalar at every entry. -/
theorem scalar_rows (z : FVec Ideal S_ .f32) (i : S100000x128.Idx) :
    broadcastInDim S100000x128 ![] bcast_S_S100000x128 z i = z ix0 :=
  broadcastInDim_apply ![] bcast_S_S100000x128 z i ix0 (fun a => a.elim0)

/-- The reference's encoder step is the encoder's function. -/
theorem encode_eq (x : FVec Ideal S100000x117 .f32) (w : FVec Ideal S117x128 .f32) (b : FVec Ideal S128 .f32) :
    Host.tanh (addf (Host.dotGeneral dot_S100000x117_S117x128_S100000x128_1_0_0_1_n_n none x w)
      (broadcastInDim S100000x128 ![0, 1] bcast_S1x128_S100000x128_0_1 (broadcastInDim S1x128 ![1] bcast_S128_S1x128_1 b)))
      = Cert.Spec.encode x w b := by
  funext i
  obtain ⟨p, j, rfl⟩ : ∃ (p : Fin 100000) (j : Fin 128), i = ix2 p j := ⟨i 0, i 1, eq_ix2 i⟩
  rw [Cert.Spec.encode_ix2]
  show Ideal.tanh (FloatOps.dotGeneral (F := Ideal) dot_S100000x117_S117x128_S100000x128_1_0_0_1_n_n none .single x w (ix2 p j)
      + broadcastInDim S100000x128 ![0, 1] bcast_S1x128_S100000x128_0_1 (broadcastInDim S1x128 ![1] bcast_S128_S1x128_1 b)
          (ix2 p j)) = _
  rw [bias_rows]
  exact congrArg (fun s => Ideal.tanh (s + b (ix1 j)))
    (Cert.LibDotPlain.dotGeneral_plain 100000 117 128 (φ₁ := .f32) (φ₂ := .f32) none .single x w p j)

/-- The reference's layer step is the layer's function. -/
theorem layer_eq (x nm : FVec Ideal S100000x128 .f32) (ws wn : FVec Ideal S128x128 .f32) (b : FVec Ideal S128 .f32) :
    maximumf (addf (addf (Host.dotGeneral dot_S100000x128_S128x128_S100000x128_1_0_0_1_n_n none x ws)
        (Host.dotGeneral dot_S100000x128_S128x128_S100000x128_1_0_0_1_n_n none nm wn))
        (broadcastInDim S100000x128 ![0, 1] bcast_S1x128_S100000x128_0_1 (broadcastInDim S1x128 ![1] bcast_S128_S1x128_1 b)))
      (broadcastInDim S100000x128 ![] bcast_S_S100000x128 (constant S_ .f32 0x00000000#32))
      = Cert.Spec.layer x nm ws wn b := by
  funext i
  obtain ⟨p, j, rfl⟩ : ∃ (p : Fin 100000) (j : Fin 128), i = ix2 p j := ⟨i 0, i 1, eq_ix2 i⟩
  rw [Cert.Spec.layer_ix2]
  show max ((FloatOps.dotGeneral (F := Ideal) dot_S100000x128_S128x128_S100000x128_1_0_0_1_n_n none .single x ws (ix2 p j)
        + FloatOps.dotGeneral (F := Ideal) dot_S100000x128_S128x128_S100000x128_1_0_0_1_n_n none .single nm wn (ix2 p j))
      + broadcastInDim S100000x128 ![0, 1] bcast_S1x128_S100000x128_0_1 (broadcastInDim S1x128 ![1] bcast_S128_S1x128_1 b)
          (ix2 p j))
      (broadcastInDim S100000x128 ![] bcast_S_S100000x128 (constant (F := Ideal) S_ .f32 0x00000000#32) (ix2 p j)) = _
  rw [bias_rows, scalar_rows]
  have h1 := Cert.LibDotPlain.dotGeneral_plain 100000 128 128 (φ₁ := .f32) (φ₂ := .f32) none .single x ws p j
  have h2 := Cert.LibDotPlain.dotGeneral_plain 100000 128 128 (φ₁ := .f32) (φ₂ := .f32) none .single nm wn p j
  exact congrArg₂ (fun s u => max ((s + u) + b (ix1 j)) (Ideal.ofBits .f32 0x00000000#32)) h1 h2

end Cert.ReferenceIdeal.Steps
-- ==== Proof.RefValue.lean ====
/-
  The reference's result is the network of its pieces.

  The reference program's run ends with its result at one composed term of the inputs (the generated run). Read layer by
  layer that term is: the encoder step on the first three float inputs; then three times the layer step on the current
  features, their neighbour mean (the neighbour sum divided by max (degree, 1) repeated along the rows: the same gather,
  the same two scatter-adds and the same wrap of negative source ids each time), and the layer's slices of the stacked
  weights and bias. The two steps are the encoder's and the layer's functions, so the term is the network of these pieces.
-/
import proofs.«173356_j66434554135156_1_alg».proof.Proof.Gen.ReferenceIdeal.Run
import proofs.«173356_j66434554135156_1_alg».proof.Proof.RefSteps
import proofs.«173356_j66434554135156_1_alg».proof.Proof.Network

set_option maxRecDepth 16384

noncomputable section

namespace Cert.ReferenceIdeal.Glue

open Idealize.ShloMosaic Idealize.ShloMosaic.ValueIdx Cert.ReferenceIdeal Cert.ReferenceIdeal.Gen

/-- The gather's index array: a negative source id is wrapped by adding 100000, and the ids are laid out as a column. -/
def gatherIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sum: every edge's source row added into its destination's row of an all-zero array. -/
def neighSum (src dst : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (gatherIdx src))

/-- max (degree, 1): a one per edge added into its destination's entry of an all-zero vector, then the larger of that
    and one. -/
def degMax (dst : IVec S1600000 32) : FVec Ideal S100000 .f32 :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The neighbour mean: the neighbour sum over max (degree, 1) repeated along the rows. -/
def meanQuot (src dst : IVec S1600000 32) (h : FVec Ideal S100000x128 .f32) : FVec Ideal S100000x128 .f32 :=
  Host.divf (neighSum src dst h)
    (broadcastInDim S100000x128 ![0, 1] bcast_S100000x1_S100000x128_0_1
      (broadcastInDim S100000x1 ![0] bcast_S100000_S100000x1_0 (degMax dst)))

/-- Layer l's slice of a stacked 3 × 128 × 128 weight, as a 128 × 128 array. -/
def weight (l : Fin 3) (w : FVec Ideal S3x128x128 .f32) : FVec Ideal S128x128 .f32 :=
  match l with
  | 0 => shapeCast S128x128 (extractStridedSlice S1x128x128 ![0, 0, 0] w slices_S3x128x128_S1x128x128_0_0_0) shapeCasts_S1x128x128_S128x128
  | 1 => shapeCast S128x128 (extractStridedSlice S1x128x128 ![1, 0, 0] w slices_S3x128x128_S1x128x128_1_0_0) shapeCasts_S1x128x128_S128x128
  | 2 => shapeCast S128x128 (extractStridedSlice S1x128x128 ![2, 0, 0] w slices_S3x128x128_S1x128x128_2_0_0) shapeCasts_S1x128x128_S128x128

/-- Layer l's slice of the stacked 3 × 128 bias, as a 128-vector. -/
def bias (l : Fin 3) (b : FVec Ideal S3x128 .f32) : FVec Ideal S128 .f32 :=
  match l with
  | 0 => shapeCast S128 (extractStridedSlice S1x128 ![0, 0] b slices_S3x128_S1x128_0_0) shapeCasts_S1x128_S128
  | 1 => shapeCast S128 (extractStridedSlice S1x128 ![1, 0] b slices_S3x128_S1x128_1_0) shapeCasts_S1x128_S128
  | 2 => shapeCast S128 (extractStridedSlice S1x128 ![2, 0] b slices_S3x128_S1x128_2_0) shapeCasts_S1x128_S128

end Cert.ReferenceIdeal.Glue

namespace Cert.ReferenceIdeal.Result

open Idealize.ShloMosaic Idealize.ShloMosaic.TcCoe Idealize.SL.Sem Cert.ReferenceIdeal Cert.ReferenceIdeal.Gen

variable (m : (ℓ : Loc nD τ sig) → Buf (Elt Ideal) ℓ)

/-- ONE LAYER of the reference's term: over features X known to be H, the layer step on X, on X's neighbour mean and
    on layer l's slices is the layer's function of H, of H's neighbour mean and of the slices. -/
theorem layer_step (src dst : IVec S1600000 32) (ws wn : FVec Ideal S3x128x128 .f32) (b : FVec Ideal S3x128 .f32)
    {X H : FVec Ideal S100000x128 .f32} (hX : X = H) (l : Fin 3) :
    maximumf (addf (addf (Host.dotGeneral dot_S100000x128_S128x128_S100000x128_1_0_0_1_n_n none X (Glue.weight l ws))
        (Host.dotGeneral dot_S100000x128_S128x128_S100000x128_1_0_0_1_n_n none (Glue.meanQuot src dst X) (Glue.weight l wn)))
        (broadcastInDim S100000x128 ![0, 1] bcast_S1x128_S100000x128_0_1
          (broadcastInDim S1x128 ![1] bcast_S128_S1x128_1 (Glue.bias l b))))
      (broadcastInDim S100000x128 ![] bcast_S_S100000x128 (constant (F := Ideal) S_ .f32 0x00000000#32))
      = Cert.Spec.layer H (Glue.meanQuot src dst H) (Glue.weight l ws) (Glue.weight l wn) (Glue.bias l b) := by
  subst hX
  exact Steps.layer_eq _ _ _ _ _

/-- THE REFERENCE'S RESULT is the network of its pieces. -/
theorem result_eq (c : Dev nD) :
    Cert.ReferenceIdeal.Value.res_main_v100 (F := Ideal) m c
      = Cert.Spec.network
          (Cert.Spec.encode (m ((c.tc : Thread nD τ).loc main_arg0)) (m ((c.tc : Thread nD τ).loc main_arg3))
            (m ((c.tc : Thread nD τ).loc main_arg4)))
          (Glue.meanQuot (m ((c.tc : Thread nD τ).loc main_arg1)) (m ((c.tc : Thread nD τ).loc main_arg2)))
          (fun l => Glue.weight l (m ((c.tc : Thread nD τ).loc main_arg5)))
          (fun l => Glue.weight l (m ((c.tc : Thread nD τ).loc main_arg6)))
          (fun l => Glue.bias l (m ((c.tc : Thread nD τ).loc main_arg7))) := by
  unfold Cert.ReferenceIdeal.Value.res_main_v100
  exact layer_step (m ((c.tc : Thread nD τ).loc main_arg1)) (m ((c.tc : Thread nD τ).loc main_arg2))
    (m ((c.tc : Thread nD τ).loc main_arg5)) (m ((c.tc : Thread nD τ).loc main_arg6)) (m ((c.tc : Thread nD τ).loc main_arg7))
    (layer_step (m ((c.tc : Thread nD τ).loc main_arg1)) (m ((c.tc : Thread nD τ).loc main_arg2))
      (m ((c.tc : Thread nD τ).loc main_arg5)) (m ((c.tc : Thread nD τ).loc main_arg6)) (m ((c.tc : Thread nD τ).loc main_arg7))
      (layer_step (m ((c.tc : Thread nD τ).loc main_arg1)) (m ((c.tc : Thread nD τ).loc main_arg2))
        (m ((c.tc : Thread nD τ).loc main_arg5)) (m ((c.tc : Thread nD τ).loc main_arg6)) (m ((c.tc : Thread nD τ).loc main_arg7))
        (Steps.encode_eq (m ((c.tc : Thread nD τ).loc main_arg0)) (m ((c.tc : Thread nD τ).loc main_arg3))
          (m ((c.tc : Thread nD τ).loc main_arg4))) 0) 1) 2

end Cert.ReferenceIdeal.Result
-- ==== Proof.Bridge.lean ====
/-
  The two programs' pieces are the same.

  The kernel program and the reference obtain the neighbour sum, the degree, and the layers' weight and bias slices by the
  same operations with the same dimension numbers, so as functions of the inputs these are equal outright. The one real
  difference is the neighbour mean: the kernel program multiplies the neighbour sum by 1 / max (degree, 1), the reference
  divides it by max (degree, 1); the kernel program's own lemma turns its product into the quotient.
-/
import proofs.«173356_j66434554135156_1_alg».proof.Proof.KGlue
import proofs.«173356_j66434554135156_1_alg».proof.Proof.RefValue

set_option maxRecDepth 16384

noncomputable section

namespace Cert.Bridge

open Idealize.ShloMosaic

/-- The dimension numbers of the gather and of the two scatter-adds are the same in the two programs. -/
theorem gather_dims : Cert.ReferenceIdeal.gather_S100000x128_S1600000x1_S1600000x128_1_0_n_n_0_1_1128
    = Cert.KernelIdeal.gather_S100000x128_S1600000x1_S1600000x128_1_0_n_n_0_1_1128 := rfl
theorem scatter_rows_dims : Cert.ReferenceIdeal.scatter_S100000x128_S1600000x1_S1600000x128_1_0_0_1
    = Cert.KernelIdeal.scatter_S100000x128_S1600000x1_S1600000x128_1_0_0_1 := rfl
theorem scatter_count_dims : Cert.ReferenceIdeal.scatter_S100000_S1600000x1_S1600000_n_0_0_1
    = Cert.KernelIdeal.scatter_S100000_S1600000x1_S1600000_n_0_0_1 := rfl

/-- The neighbour sums are one function. -/
theorem neighSum_eq (src dst : IVec ⟨1, ![1600000]⟩ 32) (h : FVec Ideal ⟨2, ![100000, 128]⟩ .f32) :
    Cert.ReferenceIdeal.Glue.neighSum src dst h = Cert.KernelIdeal.Glue.neighSum src dst h := by
  unfold Cert.ReferenceIdeal.Glue.neighSum Cert.KernelIdeal.Glue.neighSum
  rw [gather_dims, scatter_rows_dims]
  rfl

/-- max (degree, 1) is one function. -/
theorem degMax_eq (dst : IVec ⟨1, ![1600000]⟩ 32) :
    Cert.ReferenceIdeal.Glue.degMax dst = Cert.KernelIdeal.Glue.degMax dst := by
  unfold Cert.ReferenceIdeal.Glue.degMax Cert.KernelIdeal.Glue.degMax
  rw [scatter_count_dims]

/-- THE NEIGHBOUR MEANS: the reference's quotient is the kernel program's product with the reciprocal. -/
theorem mean_eq (src dst : IVec ⟨1, ![1600000]⟩ 32) :
    Cert.ReferenceIdeal.Glue.meanQuot src dst = Cert.KernelIdeal.Glue.mean src dst := by
  funext h
  rw [Cert.KernelIdeal.Glue.mean_eq_meanQuot]
  unfold Cert.ReferenceIdeal.Glue.meanQuot Cert.KernelIdeal.Glue.meanQuot
  rw [neighSum_eq, degMax_eq]

/-- The layers' weight slices are one function. -/
theorem weight_eq (l : Fin 3) (w : FVec Ideal ⟨3, ![3, 128, 128]⟩ .f32) :
    Cert.ReferenceIdeal.Glue.weight l w = Cert.KernelIdeal.Glue.weight l w := by
  match l with
  | 0 => rfl
  | 1 => rfl
  | 2 => rfl

/-- The layers' bias slices are one function. -/
theorem bias_eq (l : Fin 3) (b : FVec Ideal ⟨2, ![3, 128]⟩ .f32) :
    Cert.ReferenceIdeal.Glue.bias l b = Cert.KernelIdeal.Glue.bias l b := by
  match l with
  | 0 => rfl
  | 1 => rfl
  | 2 => rfl

end Cert.Bridge
-- ==== Proof.lean ====
/-
  The certificate: a three-layer mean-aggregating graph network as four tiled matrix kernels against its whole-array
  reference.

  Both programs encode 100000 nodes' 117 inputs to 128 features by tanh (x · W + b) and then apply three times
      h ← max ( h · Ws + mean (h) · Wn + b , 0 ),
  where mean (h) is each node's neighbour sum (the rows of h gathered at the edges' sources and added into the edges'
  destinations) divided by max (degree, 1). The kernel program computes the encoder and each layer in a tiled region, 5000
  rows at a grid point, and multiplies the neighbour sum by the reciprocal 1 / max (degree, 1) computed once; the reference
  works on whole arrays and divides. At the ideal values:

  * a region's blocks tile the rows, so its result array is the encoder's, respectively the layer's, function of the arrays
    it reads, entry by entry (a matrix product into a zero accumulator is the row-by-column sum, and so is the host's);
  * the gather and the two scatter-adds are the same operations on the same arguments in both programs;
  * x · (1 / d) = x / d for every extended real x when d ≠ 0, and d = max (degree, 1) ≥ 1.

  So both results are one composition of equal pieces. No input's finiteness is used. The frames of the two kernel
  programs are the generated frame certificates; the reference's frame is its generated run; nothing was rewritten by the
  ideal pass, so the preservation claim is empty.
-/
import proofs.«173356_j66434554135156_1_alg».proof.Defs
import proofs.«173356_j66434554135156_1_alg».proof.Proof.Gen.Kernel
import proofs.«173356_j66434554135156_1_alg».proof.Proof.Gen.Kernel.Skeleton
import proofs.«173356_j66434554135156_1_alg».proof.Proof.Gen.Kernel.Launch
import proofs.«173356_j66434554135156_1_alg».proof.Proof.Gen.Kernel.Points
import proofs.«173356_j66434554135156_1_alg».proof.Proof.Gen.Kernel.Frame
import proofs.«173356_j66434554135156_1_alg».proof.Proof.Gen.KernelIdeal
import proofs.«173356_j66434554135156_1_alg».proof.Proof.Gen.KernelIdeal.Skeleton
import proofs.«173356_j66434554135156_1_alg».proof.Proof.Gen.KernelIdeal.Launch
import proofs.«173356_j66434554135156_1_alg».proof.Proof.Gen.KernelIdeal.Points
import proofs.«173356_j66434554135156_1_alg».proof.Proof.Gen.KernelIdeal.Frame
import proofs.«173356_j66434554135156_1_alg».proof.Proof.Gen.ReferenceIdeal
import proofs.«173356_j66434554135156_1_alg».proof.Proof.Gen.Pre_finite_inputs
import proofs.«173356_j66434554135156_1_alg».proof.Proof.Gen.ReferenceIdeal.Run
import proofs.«173356_j66434554135156_1_alg».proof.Proof.RunResult
import proofs.«173356_j66434554135156_1_alg».proof.Proof.KValue
import proofs.«173356_j66434554135156_1_alg».proof.Proof.RefValue
import proofs.«173356_j66434554135156_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the network of the kernel program's pieces: the kernel program by its own run, the reference
    because its pieces are equal to the kernel program's on inputs that agree. -/
theorem algebraic : Cert.algebraic_KernelIdeal_ReferenceIdeal := by
  intro m ρ m' ρ' _ hagree
  refine ⟨fun c => Cert.Spec.network
      (Cert.Spec.encode (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (Cert.KernelIdeal.Glue.mean (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (fun l => Cert.KernelIdeal.Glue.weight l (m ((c.tc : Thread Cert.KernelIdeal.nD Cert.KernelIdeal.τ).loc Cert.KernelIdeal.main_arg5)))
      (fun l => Cert.KernelIdeal.Glue.weight l (m ((c.tc : Thread Cert.KernelIdeal.nD Cert.KernelIdeal.τ).loc Cert.KernelIdeal.main_arg6)))
      (fun l => Cert.KernelIdeal.Glue.bias l (m ((c.tc : Thread Cert.KernelIdeal.nD Cert.KernelIdeal.τ).loc Cert.KernelIdeal.main_arg7))),
    ?_, ?_⟩
  · exact (θ_run Cert.KernelIdeal.defs _ _).mono
      (fun r h c => ⟨(h c).1.trans (Cert.KernelIdeal.Result.result_eq m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Result.result_eq m' c, a0, a1, a2, a3, a4, a5, a6, a7]
    exact Cert.Spec.network_congr rfl (Cert.Bridge.mean_eq _ _) (funext fun l => Cert.Bridge.weight_eq l _)
      (funext fun l => Cert.Bridge.weight_eq l _) (funext fun l => Cert.Bridge.bias_eq l _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
